-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg2 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg2 : IVec S2x800000 32) (main_arg12 : FVec F S128 .f32) (main_arg13 : FVec F S1x128 .f32) (main_arg14 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg13
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_v63 main_v67

def fn_part2 {F : FTy → Type} [FloatOps F] (main_arg2 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_v48 main_v49 main_v50

def fn_part1 {F : FTy → Type} [FloatOps F] (main_arg2 : IVec S2x800000 32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x800000 32) (main_arg3 : FVec F S128x257 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x257 .f32 := Host.absf main_arg3
  let main_cst_2 : FVec F S_ .f32 := constant S_ .f32 0x7F800000#32
  let main_v10 : FVec F S128x257 .f32 := broadcastInDim S128x257 ![] bcast_S_S128x257 main_cst_2
  let main_v11 : IVec S128x257 1 := cmpf .olt main_v9 main_v10
  let main_c_3 : IVec S_ 1 := constantI S_ 1 1#1
  let main_v12 : IVec S_ 1 := (fun x v => Host.reduce IntOp.andi x v reducesTo_S128x257_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S800000x3 : Shape := ⟨2, ![800000, 3]⟩
abbrev S128x1 : Shape := ⟨2, ![128, 1]⟩
abbrev S4000x128 : Shape := ⟨2, ![4000, 128]⟩
abbrev S4000x1 : Shape := ⟨2, ![4000, 1]⟩
abbrev S5000x128 : Shape := ⟨2, ![5000, 128]⟩

abbrev nBuf : Space → Nat
  | .hbm => 161
  | .vmem => 31
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S128x257, .f32⟩
  | 4 => ⟨S128, .f32⟩
  | 5 => ⟨S128x128, .f32⟩
  | 6 => ⟨S128, .f32⟩
  | 7 => ⟨S128x256, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x128, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x128, .f32⟩
  | 38 => ⟨S800000x128, .i1⟩
  | 39 => ⟨S_, .f32⟩
  | 40 => ⟨S800000x128, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x128, .f32⟩
  | 61 => ⟨S800000x128, .i1⟩
  | 62 => ⟨S_, .f32⟩
  | 63 => ⟨S800000x128, .f32⟩
  | 64 => ⟨S800000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x3, .f32⟩
  | 84 => ⟨S800000x3, .i1⟩
  | 85 => ⟨S_, .f32⟩
  | 86 => ⟨S800000x3, .f32⟩
  | 87 => ⟨S800000x3, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S1, .i32⟩
  | 97 => ⟨S_, .i32⟩
  | 98 => ⟨S800000x1, .i32⟩
  | 99 => ⟨S800000x1, .i1⟩
  | 100 => ⟨S1x1, .i32⟩
  | 101 => ⟨S800000x1, .i32⟩
  | 102 => ⟨S800000x1, .i1⟩
  | 103 => ⟨S800000x1, .i1⟩
  | 104 => ⟨S_, .i1⟩
  | 105 => ⟨S800000, .i1⟩
  | 106 => ⟨S800000x3, .f32⟩
  | 107 => ⟨S800000x3, .i1⟩
  | 108 => ⟨S_, .f32⟩
  | 109 => ⟨S800000x3, .f32⟩
  | 110 => ⟨S800000x3, .f32⟩
  | 111 => ⟨S800000x3, .f32⟩
  | 112 => ⟨S800000x3, .f32⟩
  | 113 => ⟨S_, .f32⟩
  | 114 => ⟨S800000, .f32⟩
  | 115 => ⟨S800000x1, .f32⟩
  | 116 => ⟨S800000x1, .f32⟩
  | 117 => ⟨S_, .f32⟩
  | 118 => ⟨S800000x1, .f32⟩
  | 119 => ⟨S800000x1, .f32⟩
  | 120 => ⟨S128x128, .f32⟩
  | 121 => ⟨S128x128, .f32⟩
  | 122 => ⟨S128x128, .f32⟩
  | 123 => ⟨S128x128, .f32⟩
  | 124 => ⟨S128x1, .f32⟩
  | 125 => ⟨S128, .f32⟩
  | 126 => ⟨S1x128, .f32⟩
  | 127 => ⟨S128x128, .f32⟩
  | _ => ⟨S50000x128, .f32⟩

abbrev hbmTy0_1 (i : Nat) : BufTy := match i % 128 with
  | 0 => ⟨S128x128, .f32⟩
  | 1 => ⟨S128x1, .f32⟩
  | 2 => ⟨S1x128, .f32⟩
  | 3 => ⟨S1x128, .f32⟩
  | 4 => ⟨S1x128, .f32⟩
  | 5 => ⟨S1x1, .f32⟩
  | 6 => ⟨S800000x128, .f32⟩
  | 7 => ⟨S800000x1, .f32⟩
  | 8 => ⟨S_, .f32⟩
  | 9 => ⟨S50000x128, .f32⟩
  | 10 => ⟨S800000x1, .i32⟩
  | 11 => ⟨S50000x128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S1x128, .f32⟩
  | 18 => ⟨S1x128, .f32⟩
  | 19 => ⟨S50000x128, .f32⟩
  | 20 => ⟨S800000x3, .f32⟩
  | 21 => ⟨S800000x3, .f32⟩
  | 22 => ⟨S800000x3, .f32⟩
  | 23 => ⟨S800000x3, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v6 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v7 : Ref sig .tc := ⟨.hbm, 110, rfl⟩
abbrev main_v8 : Ref sig .tc := ⟨.hbm, 111, rfl⟩
abbrev main_call4_v0 : Ref sig .tc := ⟨.hbm, 112, rfl⟩
abbrev main_call4_cst : Ref sig .tc := ⟨.hbm, 113, rfl⟩
abbrev main_call4_v1 : Ref sig .tc := ⟨.hbm, 114, rfl⟩
abbrev main_call4_v2 : Ref sig .tc := ⟨.hbm, 115, rfl⟩
abbrev main_v9 : Ref sig .tc := ⟨.hbm, 116, rfl⟩
abbrev main_cst : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26_0 : Ref sig .tc := ⟨.hbm, 134, rfl⟩
abbrev main_v26_1 : Ref sig .tc := ⟨.hbm, 135, rfl⟩
abbrev main_cst_0 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_v41 : Ref sig .tc := ⟨.hbm, 151, rfl⟩
abbrev main_c : Ref sig .tc := ⟨.hbm, 152, rfl⟩
abbrev main_v42 : Ref sig .tc := ⟨.hbm, 153, rfl⟩
abbrev main_v43 : Ref sig .tc := ⟨.hbm, 154, rfl⟩
abbrev main_c_1 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  slices_S128x257_S128x128_0_0 : S128x257.Slices ![0, 0] S128x128
  transposes_S128x128_S128x128_1_0 : S128x128.Transposes [1, 0] S128x128
  slices_S128x257_S128x128_0_128 : S128x257.Slices ![0, 128] S128x128
  slices_S128x257_S128x1_0_256 : S128x257.Slices ![0, 256] S128x1
  shapeCasts_S128x1_S128 : S128x1.ShapeCasts S128
  shapeCasts_S128_S1x128 : S128.ShapeCasts S1x128
  transposes_S1x128_S128x1_1_0 : S1x128.Transposes [1, 0] S128x1
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S800000x1_S800000x3_0_1 : S800000x1.BroadcastsInDim S800000x3 (![0, 1] : Fin 2 → Fin S800000x3.rank)
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S800000x128.size a
  hwx0_13 : ∀ i : grid0.Coords, EltTy.bits .f32 = 32 ∨ (Rect.block (s := S800000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x1.size a ≤ S800000x1.size a
  hwx0_14 : ∀ i : grid0.Coords, EltTy.bits .f32 = 32 ∨ (Rect.block (s := S800000x1) S4000x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v26_1) S4000x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S128x257 : Shape := ⟨2, ![128, 257]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S257x128 : Shape := ⟨2, ![257, 128]⟩
abbrev S50000x256 : Shape := ⟨2, ![50000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S128x257, .f32⟩
  | 4 => ⟨S128, .f32⟩
  | 5 => ⟨S128x128, .f32⟩
  | 6 => ⟨S128, .f32⟩
  | 7 => ⟨S128x256, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x128, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S800000x1, .f32⟩
  | 43 => ⟨S_, .f32⟩
  | 44 => ⟨S800000x1, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x257, .f32⟩
  | 65 => ⟨S257x128, .f32⟩
  | 66 => ⟨S800000x128, .f32⟩
  | 67 => ⟨S1x128, .f32⟩
  | 68 => ⟨S800000x128, .f32⟩
  | 69 => ⟨S800000x128, .f32⟩
  | 70 => ⟨S800000x128, .f32⟩
  | 71 => ⟨S800000x128, .f32⟩
  | 72 => ⟨S_, .f32⟩
  | 73 => ⟨S800000x128, .f32⟩
  | 74 => ⟨S800000x128, .f32⟩
  | 75 => ⟨S_, .f32⟩
  | 76 => ⟨S800000x128, .f32⟩
  | 77 => ⟨S800000x128, .f32⟩
  | 78 => ⟨S800000x128, .f32⟩
  | 79 => ⟨S128x128, .f32⟩
  | 80 => ⟨S800000x128, .f32⟩
  | 81 => ⟨S1x128, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x256, .f32⟩
  | 89 => ⟨S256x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S128x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S128x128, .f32⟩
  | 110 => ⟨S800000x128, .f32⟩
  | 111 => ⟨S1x128, .f32⟩
  | 112 => ⟨S800000x128, .f32⟩
  | 113 => ⟨S800000x128, .f32⟩
  | 114 => ⟨S800000x128, .f32⟩
  | 115 => ⟨S800000x128, .f32⟩
  | 116 => ⟨S_, .f32⟩
  | 117 => ⟨S800000x128, .f32⟩
  | 118 => ⟨S800000x128, .f32⟩
  | 119 => ⟨S_, .f32⟩
  | 120 => ⟨S800000x128, .f32⟩
  | 121 => ⟨S800000x128, .f32⟩
  | 122 => ⟨S800000x128, .f32⟩
  | 123 => ⟨S128x1, .f32⟩
  | 124 => ⟨S800000x1, .f32⟩
  | 125 => ⟨S1x1, .f32⟩
  | 126 => ⟨S800000x1, .f32⟩
  | 127 => ⟨S800000x1, .f32⟩
  | _ => ⟨S50000x128, .f32⟩

abbrev hbmTy0_1 (i : Nat) : BufTy := match i % 128 with
  | 0 => ⟨S800000x1, .f32⟩
  | 1 => ⟨S_, .f32⟩
  | 2 => ⟨S800000x1, .f32⟩
  | 3 => ⟨S800000x1, .f32⟩
  | 4 => ⟨S800000x3, .f32⟩
  | 5 => ⟨S800000x3, .f32⟩
  | 6 => ⟨S800000x3, .f32⟩
  | 7 => ⟨S800000x3, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_8 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_9 : Ref sig .tc := ⟨.hbm, 136, rfl⟩
abbrev main_v82 : Ref sig .tc := ⟨.hbm, 137, rfl⟩
abbrev main_v83 : Ref sig .tc := ⟨.hbm, 138, rfl⟩
abbrev main_c_10 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  concatenates_S800000x128_S800000x128_S800000x1_S800000x257_d1 : Shape.Concatenates [S800000x128, S800000x128, S800000x1] S800000x257 1
  transposes_S128x257_S257x128_1_0 : S128x257.Transposes [1, 0] S257x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/- The mathematics of the message-passing layer, entry by entry, over the extended reals.

   An edge `e` carries the feature rows of its two end nodes, `hr e` and `hc e`, and one distance `rd e`.
   The first edge layer is affine in these three pieces: two 128-term sums against the two halves of the
   weight matrix, one product with its last column, and the bias (`s1`).  The message `mij` is a second
   affine layer applied to the gated value `silu (s1 …)`.  The coordinate weight `cdiff` is a two-layer
   perceptron of the message followed by `tanh` and a fixed scale.  The node update `hnew` adds to a
   node's features a two-layer perceptron of its features and of its aggregated messages, the first layer
   again split into the two halves of its weight matrix.

   Everything here is a plain function of arrays of extended reals; no program is mentioned. -/
import Idealize.ShloMosaic.PureOps.Ideal
import Idealize.ShloMosaic.Lib.ValueIdx

noncomputable section

namespace Cert.Spec

open Idealize.ShloMosaic Idealize.ShloMosaic.ValueIdx
open scoped BigOperators

/-- A rank-two array of extended reals. -/
abbrev A2 (n0 n1 : Nat) : Type := (⟨2, ![n0, n1]⟩ : Shape).Idx → EReal

/-- The gate `x · σ(x)`, with `σ` the logistic function extended to the two infinities. -/
def silu (x : EReal) : EReal := x * Ideal.logistic x

/-- The scale applied to the coordinate weight: the binary value of the single-precision word nearest to one tenth. -/
def tenth : EReal := Ideal.ofBits .f32 0x3DCCCCCD#32

/-- First edge layer at edge `e`, hidden unit `k`. The weights come transposed: `wr i k`, `wc i k` multiply input `i`. -/
def s1 (hr hc : A2 800000 128) (rd : A2 800000 1) (wr wc : A2 128 128) (wrad b1 : A2 1 128)
    (e : Fin 800000) (k : Fin 128) : EReal :=
  (((∑ i : Fin 128, hr (ix2 e i) * wr (ix2 i k)) + (∑ i : Fin 128, hc (ix2 e i) * wc (ix2 i k)))
      + rd (ix2 e 0) * wrad (ix2 0 k)) + b1 (ix2 0 k)

/-- The message of edge `e`, output unit `j`. -/
def mij (hr hc : A2 800000 128) (rd : A2 800000 1) (wr wc : A2 128 128) (wrad b1 : A2 1 128)
    (w2 : A2 128 128) (b2 : A2 1 128) (e : Fin 800000) (j : Fin 128) : EReal :=
  (∑ k : Fin 128, silu (s1 hr hc rd wr wc wrad b1 e k) * w2 (ix2 k j)) + b2 (ix2 0 j)

/-- The messages as an array. -/
def mijArr (hr hc : A2 800000 128) (rd : A2 800000 1) (wr wc : A2 128 128) (wrad b1 : A2 1 128)
    (w2 : A2 128 128) (b2 : A2 1 128) : A2 800000 128 :=
  fun i => mij hr hc rd wr wc wrad b1 w2 b2 (i 0) (i 1)

/-- The coordinate weight of edge `e`, from the edge's message row. -/
def cdiff (mm : A2 800000 128) (wc1 : A2 128 128) (bc1 : A2 1 128) (wc2 : A2 128 1) (bc2 : A2 1 1)
    (e : Fin 800000) : EReal :=
  Ideal.tanh ((∑ k : Fin 128, silu ((∑ j : Fin 128, mm (ix2 e j) * wc1 (ix2 j k)) + bc1 (ix2 0 k)) * wc2 (ix2 k 0))
      + bc2 (ix2 0 0)) * tenth

/-- The coordinate weights as a one-column array. -/
def cdiffArr (mm : A2 800000 128) (wc1 : A2 128 128) (bc1 : A2 1 128) (wc2 : A2 128 1) (bc2 : A2 1 1) : A2 800000 1 :=
  fun i => cdiff mm wc1 bc1 wc2 bc2 (i 0)

/-- First node layer at node `n`, hidden unit `k`. -/
def t1 (h agg : A2 50000 128) (wh wa : A2 128 128) (b1 : A2 1 128) (n : Fin 50000) (k : Fin 128) : EReal :=
  ((∑ i : Fin 128, h (ix2 n i) * wh (ix2 i k)) + (∑ i : Fin 128, agg (ix2 n i) * wa (ix2 i k))) + b1 (ix2 0 k)

/-- The updated feature `j` of node `n`. -/
def hnew (h agg : A2 50000 128) (wh wa : A2 128 128) (b1 : A2 1 128) (w2 : A2 128 128) (b2 : A2 1 128)
    (n : Fin 50000) (j : Fin 128) : EReal :=
  h (ix2 n j) + ((∑ k : Fin 128, silu (t1 h agg wh wa b1 n k) * w2 (ix2 k j)) + b2 (ix2 0 j))

/-- The updated features as an array. -/
def hnewArr (h agg : A2 50000 128) (wh wa : A2 128 128) (b1 : A2 1 128) (w2 : A2 128 128) (b2 : A2 1 128) : A2 50000 128 :=
  fun i => hnew h agg wh wa b1 w2 b2 (i 0) (i 1)

/-! ## The weights as the layers receive them

The layers above take their weights transposed and their biases as one-row arrays. These are the
re-layouts of the weight arrays as they are given: the two 128-column halves and the last column of the
first edge matrix, the two halves of the first node matrix, plain transposes, and biases as rows. -/

/-- A rank-one array of extended reals. -/
abbrev A1 (n : Nat) : Type := (⟨1, ![n]⟩ : Shape).Idx → EReal

/-- Columns 0 … 127 of a 128 × 257 matrix, transposed. -/
def topT (W : A2 128 257) : A2 128 128 :=
  fun i => W (ix2 (i 1 : Fin 128) (Fin.castLE (by decide : 128 ≤ 257) (i 0 : Fin 128)))
/-- Columns 128 … 255 of a 128 × 257 matrix, transposed. -/
def midT (W : A2 128 257) : A2 128 128 :=
  fun i => W (ix2 (i 1 : Fin 128) (Fin.castLE (by decide : 128 + 128 ≤ 257) (Fin.natAdd 128 (i 0 : Fin 128))))
/-- Column 256 of a 128 × 257 matrix, as a row. -/
def lastRow (W : A2 128 257) : A2 1 128 := fun i => W (ix2 (i 1 : Fin 128) (256 : Fin 257))
/-- A length-128 vector as a one-row array. -/
def rowOf (b : A1 128) : A2 1 128 := fun i => b (ix1 (i 1 : Fin 128))
/-- The transpose of a square matrix. -/
def tr (W : A2 128 128) : A2 128 128 := fun i => W (ix2 (i 1 : Fin 128) (i 0 : Fin 128))
/-- A one-row matrix as a column. -/
def trCol (W : A2 1 128) : A2 128 1 := fun i => W (ix2 (i 1 : Fin 1) (i 0 : Fin 128))
/-- A length-one vector as a 1 × 1 array. -/
def oneOf (b : A1 1) : A2 1 1 := fun i => b (ix1 (i 1 : Fin 1))
/-- Columns 0 … 127 of a 128 × 256 matrix, transposed. -/
def leftT (W : A2 128 256) : A2 128 128 :=
  fun i => W (ix2 (i 1 : Fin 128) (Fin.castLE (by decide : 128 ≤ 256) (i 0 : Fin 128)))
/-- Columns 128 … 255 of a 128 × 256 matrix, transposed. -/
def rightT (W : A2 128 256) : A2 128 128 :=
  fun i => W (ix2 (i 1 : Fin 128) (Fin.natAdd 128 (i 0 : Fin 128) : Fin 256))

end Cert.Spec

end
-- ==== Proof.KHostDefs.lean ====
/- The host side of the message-passing layer, as functions of the argument arrays.

   The edge list is a 2 × 800000 array of node numbers; its two rows are the edges' two end nodes.
   A row of node numbers is made into a column of start positions by adding the node count to the
   negative entries. Taking rows of a node array along such a column gives, per edge, the node's row
   where the position lies in 0 … 49999 and a not-a-number filler elsewhere. The radial vector of an
   edge is the difference of its two end nodes' coordinates, and its length is floored at a small
   positive constant. The messages are summed into their first end nodes, starting from zero; the
   coordinates receive, per edge, the normalised radial vector scaled by the edge's coordinate weight.

   Every function here composes the array operations in the order the program applies them, so that
   a buffer of the program read back through its operations is one of these terms on the nose. -/
import proofs.«408380_j34084860461598_1_alg».proof.Proof.Gen.KernelIdeal
import Idealize.ShloMosaic.PureOps.Ideal

noncomputable section

namespace Cert.KernelIdeal.Hand

open Idealize.ShloMosaic
open Cert.KernelIdeal Cert.KernelIdeal.Gen

/-- The first end node of every edge: row 0 of the edge list, as a vector. -/
def rowK (x2 : IVec S2x800000 32) : IVec S800000 32 :=
  shapeCast S800000 (extractStridedSlice S1x800000 ![0, 0] x2 slices_S2x800000_S1x800000_0_0) shapeCasts_S1x800000_S800000

/-- The second end node of every edge: row 1 of the edge list, as a vector. -/
def colK (x2 : IVec S2x800000 32) : IVec S800000 32 :=
  shapeCast S800000 (extractStridedSlice S1x800000 ![1, 0] x2 slices_S2x800000_S1x800000_1_0) shapeCasts_S1x800000_S800000

/-- Node numbers as a column of start positions: a negative entry is moved up by the node count 50000. -/
def wrapK (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- Per edge, whether its start position lies in 0 … 49999: the conjunction, over the one column, of
    "at least 0" and "at most 49999". -/
def inRangeK (w : IVec S800000x1 32) : IVec S800000 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The 128 features of each edge's node `idx e`: the gathered row where the position is in range, the
    not-a-number filler elsewhere. -/
def takeK128 (x : FVec Ideal S50000x128 .f32) (idx : IVec S800000 32) : FVec Ideal S800000x128 .f32 :=
  select (broadcastInDim S800000x128 ![0] bcast_S800000_S800000x128_0 (inRangeK (wrapK idx)))
    (Host.gather gather_S50000x128_S800000x1_S800000x128_1_0_n_n_0_1_1128 x (wrapK idx))
    (broadcastInDim S800000x128 ![] bcast_S_S800000x128 (constant (F := Ideal) S_ .f32 0x7FC00000#32))

/-- The 3 coordinates of each edge's node `idx e`, in the same way. -/
def takeK3 (x : FVec Ideal S50000x3 .f32) (idx : IVec S800000 32) : FVec Ideal S800000x3 .f32 :=
  select (broadcastInDim S800000x3 ![0] bcast_S800000_S800000x3_0 (inRangeK (wrapK idx)))
    (Host.gather gather_S50000x3_S800000x1_S800000x3_1_0_n_n_0_1_13 x (wrapK idx))
    (broadcastInDim S800000x3 ![] bcast_S_S800000x3 (constant (F := Ideal) S_ .f32 0x7FC00000#32))

/-- The radial vector of each edge: first end node's coordinates minus the second's. -/
def radialK (x1 : FVec Ideal S50000x3 .f32) (x2 : IVec S2x800000 32) : FVec Ideal S800000x3 .f32 :=
  subf (takeK3 x1 (rowK x2)) (takeK3 x1 (colK x2))

/-- The length of each edge's radial vector — the square root of the sum of its three squares, as a
    column — floored at the constant of word 0x322BCC77. -/
def radK (x1 : FVec Ideal S50000x3 .f32) (x2 : IVec S2x800000 32) : FVec Ideal S800000x1 .f32 :=
  maximumf
    (Host.sqrt (broadcastInDim S800000x1 ![0] bcast_S800000_S800000x1_0
      (Host.reduceAdd (mulf (radialK x1 x2) (radialK x1 x2)) (constant (F := Ideal) S_ .f32 0x00000000#32)
        reducesTo_S800000x3_S800000_d1 h_S_)))
    (broadcastInDim S800000x1 ![] bcast_S_S800000x1 (constant (F := Ideal) S_ .f32 0x322BCC77#32))

/-- The messages summed into their nodes `row e`, from the zero array. -/
def aggK (row : IVec S800000 32) (mm : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row) mm

/-- The new coordinates: to each node's coordinates is added, for every edge that starts there, the edge's
    radial vector divided by its floored length and scaled by the edge's coordinate weight `cd e`. -/
def posK (x1 : FVec Ideal S50000x3 .f32) (x2 : IVec S2x800000 32) (cd : FVec Ideal S800000x1 .f32) :
    FVec Ideal S50000x3 .f32 :=
  Host.scatterAdd scatter_S50000x3_S800000x1_S800000x3_1_0_0_1 x1 (wrapK (rowK x2))
    (mulf (broadcastInDim S800000x3 ![0, 1] bcast_S800000x1_S800000x3_0_1 cd)
      (Host.divf (radialK x1 x2) (broadcastInDim S800000x3 ![0, 1] bcast_S800000x1_S800000x3_0_1 (radK x1 x2))))

end Cert.KernelIdeal.Hand

end
-- ==== Proof.KWalk.lean ====
/- Which buffers each stretch of host operations writes, and hence which it leaves alone.

   The buffer contents at the boundaries of the program's stretches form a chain, each link the
   operations of one stretch applied in order to the contents before it. A stretch changes only
   the buffers its operations write; listing those once per stretch turns "this buffer is the same
   before and after the stretch" into a membership test on a list of names. The two kernel regions
   change only their windows' arrays. Composing the links reads any buffer at a late boundary back
   to the boundary where it was last written, and an argument array back to the launch memory. -/
import proofs.«408380_j34084860461598_1_alg».proof.Proof.Gen.KernelIdeal.Frame
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ) (ρ : Dev nD → PrngReg)

/-! ## The buffers each stretch writes -/

/-- The buffers `hostOps0` writes, in order. -/
abbrev hostOps0_W : List (Ref sig .tc) := [main_v0, main_v1, main_v2, main_v3]
set_option maxHeartbeats 1000000 in
theorem hostOps0_writes : (hostOps0 : List (HloOp τ sig (Elt Ideal))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_1` writes, in order. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
set_option maxHeartbeats 1000000 in
theorem hostOps0_1_writes : (hostOps0_1 : List (HloOp τ sig (Elt Ideal))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_2` writes, in order. -/
abbrev hostOps0_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
set_option maxHeartbeats 1000000 in
theorem hostOps0_2_writes : (hostOps0_2 : List (HloOp τ sig (Elt Ideal))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_3` writes, in order. -/
abbrev hostOps0_3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
set_option maxHeartbeats 1000000 in
theorem hostOps0_3_writes : (hostOps0_3 : List (HloOp τ sig (Elt Ideal))).Forall fun op => op.writes ⊆ (hostOps0_3_W.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_4` writes, in order. -/
abbrev hostOps0_4_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
set_option maxHeartbeats 1000000 in
theorem hostOps0_4_writes : (hostOps0_4 : List (HloOp τ sig (Elt Ideal))).Forall fun op => op.writes ⊆ (hostOps0_4_W.map (Proc.devRef (τ := τ) .tc)).toFinset := by
  simp only [hostOps0_4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_5` writes, in order. -/
abbrev hostOps0_5_W : List (Ref sig .tc) := [main_v8]
set_option maxHeartbeats 1000000 in
theorem hostOps0_5_writes : (hostOps0_5 : List (HloOp τ sig (Elt Ideal))).Forall fun op => op.writes ⊆ (hostOps0_5_W.map (Proc.devRef (τ := τ) .tc)).toFinset := by
  simp only [hostOps0_5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_6` writes, in order. -/
abbrev hostOps0_6_W : List (Ref sig .tc) := [main_call4_v0, main_call4_cst, main_call4_v1, main_call4_v2, main_v9]
set_option maxHeartbeats 1000000 in
theorem hostOps0_6_writes : (hostOps0_6 : List (HloOp τ sig (Elt Ideal))).Forall fun op => op.writes ⊆ (hostOps0_6_W.map (Proc.devRef (τ := τ) .tc)).toFinset := by
  simp only [hostOps0_6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps0_7` writes, in order. -/
abbrev hostOps0_7_W : List (Ref sig .tc) := [main_cst, main_v10, main_v11, main_v12, main_v13, main_v14, main_v15, main_v16, main_v17, main_v18, main_v19, main_v20, main_v21, main_v22, main_v23, main_v24, main_v25]
set_option maxHeartbeats 1000000 in
theorem hostOps0_7_writes : (hostOps0_7 : List (HloOp τ sig (Elt Ideal))).Forall fun op => op.writes ⊆ (hostOps0_7_W.map (Proc.devRef (τ := τ) .tc)).toFinset := by
  simp only [hostOps0_7, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps1` writes, in order. -/
abbrev hostOps1_W : List (Ref sig .tc) := [main_cst_0, main_v27, main_v28, main_v29, main_v30, main_v31, main_v32, main_v33, main_v34, main_v35, main_v36]
set_option maxHeartbeats 1000000 in
theorem hostOps1_writes : (hostOps1 : List (HloOp τ sig (Elt Ideal))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers `hostOps2` writes, in order. -/
abbrev hostOps2_W : List (Ref sig .tc) := [main_v38, main_v39, main_v40, main_v41, main_c, main_v42, main_v43, main_c_1, main_v44, main_v45, main_v46, main_v47, main_v48]
set_option maxHeartbeats 1000000 in
theorem hostOps2_writes : (hostOps2 : List (HloOp τ sig (Elt Ideal))).Forall fun op => op.writes ⊆ (hostOps2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## One link of the chain at a buffer the link does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

theorem W10_of (c : Dev nD) (r : Ref sig .tc) (h : r ∉ hostOps1_W) :
    W10 m ρ c (Proc.devRef .tc r) = W9 m ρ c (Proc.devRef .tc r) :=
  StableHlo.after_of_writes_sub hostOps1 _ hostOps1_writes h

theorem W12_of (c : Dev nD) (r : Ref sig .tc) (h : r ∉ hostOps2_W) :
    W12 m ρ c (Proc.devRef .tc r) = W11 m ρ c (Proc.devRef .tc r) :=
  StableHlo.after_of_writes_sub hostOps2 _ hostOps2_writes h

/-- The first kernel region changes only its windows' arrays. -/
theorem W9_of (c : Dev nD) (r : Ref sig .tc) (h : ∀ w, Pipeline.arrRef spec0 w ≠ r) :
    W9 m ρ c (Proc.devRef .tc r) = W8 m ρ c (Proc.devRef .tc r) := W9_of_ne m ρ c r h

/-- The second kernel region changes only its windows' arrays. -/
theorem W11_of (c : Dev nD) (r : Ref sig .tc) (h : ∀ w, Pipeline.arrRef spec1 w ≠ r) :
    W11 m ρ c (Proc.devRef .tc r) = W10 m ρ c (Proc.devRef .tc r) := W11_of_ne m ρ c r h

/-! ## Several links at once -/

/-- A buffer that none of the stretches after boundary `k` and before the first region writes holds at the
    first region's entry (boundary 8) what it held at boundary `k`: one lemma per `k`. -/
theorem W8_eq_W7 (c : Dev nD) (r : Ref sig .tc) (h7 : r ∉ hostOps0_7_W) :
    W8 m ρ c (Proc.devRef .tc r) = W7 m ρ c (Proc.devRef .tc r) := W8_of m ρ c r h7
theorem W8_eq_W6 (c : Dev nD) (r : Ref sig .tc) (h6 : r ∉ hostOps0_6_W) (h7 : r ∉ hostOps0_7_W) :
    W8 m ρ c (Proc.devRef .tc r) = W6 m ρ c (Proc.devRef .tc r) := (W8_eq_W7 m ρ c r h7).trans (W7_of m ρ c r h6)
theorem W8_eq_W5 (c : Dev nD) (r : Ref sig .tc) (h5 : r ∉ hostOps0_5_W) (h6 : r ∉ hostOps0_6_W) (h7 : r ∉ hostOps0_7_W) :
    W8 m ρ c (Proc.devRef .tc r) = W5 m ρ c (Proc.devRef .tc r) := (W8_eq_W6 m ρ c r h6 h7).trans (W6_of m ρ c r h5)
theorem W8_eq_W4 (c : Dev nD) (r : Ref sig .tc) (h4 : r ∉ hostOps0_4_W) (h5 : r ∉ hostOps0_5_W) (h6 : r ∉ hostOps0_6_W)
    (h7 : r ∉ hostOps0_7_W) :
    W8 m ρ c (Proc.devRef .tc r) = W4 m ρ c (Proc.devRef .tc r) := (W8_eq_W5 m ρ c r h5 h6 h7).trans (W5_of m ρ c r h4)
theorem W8_eq_W3 (c : Dev nD) (r : Ref sig .tc) (h3 : r ∉ hostOps0_3_W) (h4 : r ∉ hostOps0_4_W) (h5 : r ∉ hostOps0_5_W)
    (h6 : r ∉ hostOps0_6_W) (h7 : r ∉ hostOps0_7_W) :
    W8 m ρ c (Proc.devRef .tc r) = W3 m ρ c (Proc.devRef .tc r) := (W8_eq_W4 m ρ c r h4 h5 h6 h7).trans (W4_of m ρ c r h3)
theorem W8_eq_W2 (c : Dev nD) (r : Ref sig .tc) (h2 : r ∉ hostOps0_2_W) (h3 : r ∉ hostOps0_3_W) (h4 : r ∉ hostOps0_4_W)
    (h5 : r ∉ hostOps0_5_W) (h6 : r ∉ hostOps0_6_W) (h7 : r ∉ hostOps0_7_W) :
    W8 m ρ c (Proc.devRef .tc r) = W2 m ρ c (Proc.devRef .tc r) := (W8_eq_W3 m ρ c r h3 h4 h5 h6 h7).trans (W3_of m ρ c r h2)
theorem W8_eq_W1 (c : Dev nD) (r : Ref sig .tc) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    W8 m ρ c (Proc.devRef .tc r) = W1 m ρ c (Proc.devRef .tc r) := (W8_eq_W2 m ρ c r h2 h3 h4 h5 h6 h7).trans (W2_of m ρ c r h1)
theorem W8_eq_W0 (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) :
    W8 m ρ c (Proc.devRef .tc r) = W0 m ρ c (Proc.devRef .tc r) := (W8_eq_W1 m ρ c r h1 h2 h3 h4 h5 h6 h7).trans (W1_of m ρ c r h0)

/-- A buffer that neither the first region nor the stretch after it writes holds at the second region's
    entry what it held at the first region's entry. -/
theorem W10_eq_W8 (c : Dev nD) (r : Ref sig .tc) (h : r ∉ hostOps1_W) (h' : ∀ w, Pipeline.arrRef spec0 w ≠ r) :
    W10 m ρ c (Proc.devRef .tc r) = W8 m ρ c (Proc.devRef .tc r) := (W10_of m ρ c r h).trans (W9_of m ρ c r h')

/-- A buffer untouched from the first region's entry to the second region's exit. -/
theorem W11_eq_W8 (c : Dev nD) (r : Ref sig .tc) (h : r ∉ hostOps1_W) (h' : ∀ w, Pipeline.arrRef spec0 w ≠ r)
    (h'' : ∀ w, Pipeline.arrRef spec1 w ≠ r) :
    W11 m ρ c (Proc.devRef .tc r) = W8 m ρ c (Proc.devRef .tc r) := (W11_of m ρ c r h'').trans (W10_eq_W8 m ρ c r h h')

/-- The launch memory at an argument's buffer is the argument. -/
theorem W0_eq (c : Dev nD) (r : Ref sig .tc) : W0 m ρ c (Proc.devRef .tc r) = m ((c : Thread nD τ).loc r) := rfl

end Cert.KernelIdeal.Hand

end
-- ==== Proof.KHost.lean ====
/- The program's host side read back through the chain of buffer contents.

   Each stretch of host operations, applied to ANY buffer contents, leaves in its result buffer the
   term its operations compose — the edge list's rows, a node array taken along a row, the radial
   vectors, their floored lengths, the scattered sums. Reading the chain of contents at a window's
   array, link by link back to the stretch that wrote it and from there to the launch memory, names
   what each kernel region finds in its windows and what the program returns, as the functions of
   the argument arrays defined beside this file. -/
import proofs.«408380_j34084860461598_1_alg».proof.Proof.Gen.KernelIdeal.Frame
import proofs.«408380_j34084860461598_1_alg».proof.Proof.Spec
import proofs.«408380_j34084860461598_1_alg».proof.Proof.KHostDefs
import proofs.«408380_j34084860461598_1_alg».proof.Proof.KWalk
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.Tactic
open Idealize.ShloMosaic.StableHlo
open Cert.KernelIdeal Cert.KernelIdeal.Gen Cert.Spec

variable (m : (ℓ : Loc nD τ sig) → Buf (Elt Ideal) ℓ) (ρ : Dev nD → PrngReg)

/-! ## Arrays at a buffer's own type and at the type a called function gives it

A called function's operations carry, with each buffer, the array type the function's text gives it;
that type and the buffer's own are equal, and an array crosses between them unchanged. -/

/-- A buffer's contents read at the array type a typed reference carries. -/
def rdT {T : BufTy} (x : StableHlo.TRef sig T) (V : Valuation τ sig (Elt Ideal)) : T.Contents (Elt Ideal) :=
  x.ofBuf (V (Proc.devRef .tc x.ref))

/-- An array of the type a typed reference carries, as contents of its buffer. -/
def wrT {T : BufTy} (x : StableHlo.TRef sig T) (v : T.Contents (Elt Ideal)) : x.ref.ty.Contents (Elt Ideal) :=
  x.toBuf v

/-- Moving an array to a buffer's own type and back is the identity. -/
theorem ofBuf_toBuf_self {T : BufTy} (x : StableHlo.TRef sig T) (v : T.Contents (Elt Ideal)) :
    x.ofBuf (x.toBuf v) = v := by
  obtain ⟨r, h, _, _⟩ := x
  cases h
  rfl

theorem rdT_main_arg0 (V : Valuation τ sig (Elt Ideal)) :
    rdT (.of main_arg0 : StableHlo.TRef sig ⟨S50000x128, .f32⟩) V = V (Proc.devRef .tc main_arg0) := rfl
theorem rdT_main_arg1 (V : Valuation τ sig (Elt Ideal)) :
    rdT (.of main_arg1 : StableHlo.TRef sig ⟨S50000x3, .f32⟩) V = V (Proc.devRef .tc main_arg1) := rfl
theorem rdT_main_v1 (V : Valuation τ sig (Elt Ideal)) :
    rdT (.of main_v1 : StableHlo.TRef sig ⟨S800000, .i32⟩) V = V (Proc.devRef .tc main_v1) := rfl
theorem rdT_main_v3 (V : Valuation τ sig (Elt Ideal)) :
    rdT (.of main_v3 : StableHlo.TRef sig ⟨S800000, .i32⟩) V = V (Proc.devRef .tc main_v3) := rfl
theorem rdT_main_v8 (V : Valuation τ sig (Elt Ideal)) :
    rdT (.of main_v8 : StableHlo.TRef sig ⟨S800000x3, .f32⟩) V = V (Proc.devRef .tc main_v8) := rfl
theorem wrT_main_v4 (v : (⟨S800000x128, .f32⟩ : BufTy).Contents (Elt Ideal)) :
    wrT (.of main_v4 : StableHlo.TRef sig ⟨S800000x128, .f32⟩) v = v := rfl
theorem wrT_main_v5 (v : (⟨S800000x128, .f32⟩ : BufTy).Contents (Elt Ideal)) :
    wrT (.of main_v5 : StableHlo.TRef sig ⟨S800000x128, .f32⟩) v = v := rfl
theorem wrT_main_v6 (v : (⟨S800000x3, .f32⟩ : BufTy).Contents (Elt Ideal)) :
    wrT (.of main_v6 : StableHlo.TRef sig ⟨S800000x3, .f32⟩) v = v := rfl
theorem wrT_main_v7 (v : (⟨S800000x3, .f32⟩ : BufTy).Contents (Elt Ideal)) :
    wrT (.of main_v7 : StableHlo.TRef sig ⟨S800000x3, .f32⟩) v = v := rfl
theorem wrT_main_v9 (v : (⟨S800000x1, .f32⟩ : BufTy).Contents (Elt Ideal)) :
    wrT (.of main_v9 : StableHlo.TRef sig ⟨S800000x1, .f32⟩) v = v := rfl

/-! ## What each stretch leaves in its result buffer, from any contents -/

/-- The edge list's row 0. -/
theorem st0_v1 (V : Valuation τ sig (Elt Ideal)) :
    StableHlo.after hostOps0 V (Proc.devRef .tc main_v1) = rowK (V (Proc.devRef .tc main_arg2)) := by
  dsimp only [hostOps0]
  after_results
  rfl

/-- The edge list's row 1. -/
theorem st0_v3 (V : Valuation τ sig (Elt Ideal)) :
    StableHlo.after hostOps0 V (Proc.devRef .tc main_v3) = colK (V (Proc.devRef .tc main_arg2)) := by
  dsimp only [hostOps0]
  after_results
  rfl

set_option maxHeartbeats 2000000 in
/-- The node array taken along a row of the edge list (call 1 of four). -/
theorem st1_v4 (V : Valuation τ sig (Elt Ideal)) :
    StableHlo.after hostOps0_1 V (Proc.devRef .tc main_v4)
      = wrT (.of main_v4 : StableHlo.TRef sig ⟨S800000x128, .f32⟩) (takeK128 (rdT (.of main_arg0 : StableHlo.TRef sig ⟨S50000x128, .f32⟩) V) (rdT (.of main_v1 : StableHlo.TRef sig ⟨S800000, .i32⟩) V)) := by
  after_results_simp
  repeat rw [ofBuf_toBuf_self]
  unfold wrT rdT takeK128 inRangeK wrapK
  with_reducible rfl

set_option maxHeartbeats 2000000 in
/-- The node array taken along a row of the edge list (call 2 of four). -/
theorem st2_v5 (V : Valuation τ sig (Elt Ideal)) :
    StableHlo.after hostOps0_2 V (Proc.devRef .tc main_v5)
      = wrT (.of main_v5 : StableHlo.TRef sig ⟨S800000x128, .f32⟩) (takeK128 (rdT (.of main_arg0 : StableHlo.TRef sig ⟨S50000x128, .f32⟩) V) (rdT (.of main_v3 : StableHlo.TRef sig ⟨S800000, .i32⟩) V)) := by
  after_results_simp
  repeat rw [ofBuf_toBuf_self]
  unfold wrT rdT takeK128 inRangeK wrapK
  with_reducible rfl

set_option maxHeartbeats 2000000 in
/-- The node array taken along a row of the edge list (call 3 of four). -/
theorem st3_v6 (V : Valuation τ sig (Elt Ideal)) :
    StableHlo.after hostOps0_3 V (Proc.devRef .tc main_v6)
      = wrT (.of main_v6 : StableHlo.TRef sig ⟨S800000x3, .f32⟩) (takeK3 (rdT (.of main_arg1 : StableHlo.TRef sig ⟨S50000x3, .f32⟩) V) (rdT (.of main_v1 : StableHlo.TRef sig ⟨S800000, .i32⟩) V)) := by
  after_results_simp
  repeat rw [ofBuf_toBuf_self]
  unfold wrT rdT takeK3 inRangeK wrapK
  with_reducible rfl

set_option maxHeartbeats 2000000 in
/-- The node array taken along a row of the edge list (call 4 of four). -/
theorem st4_v7 (V : Valuation τ sig (Elt Ideal)) :
    StableHlo.after hostOps0_4 V (Proc.devRef .tc main_v7)
      = wrT (.of main_v7 : StableHlo.TRef sig ⟨S800000x3, .f32⟩) (takeK3 (rdT (.of main_arg1 : StableHlo.TRef sig ⟨S50000x3, .f32⟩) V) (rdT (.of main_v3 : StableHlo.TRef sig ⟨S800000, .i32⟩) V)) := by
  after_results_simp
  repeat rw [ofBuf_toBuf_self]
  unfold wrT rdT takeK3 inRangeK wrapK
  with_reducible rfl

/-- The radial vectors: the difference of the two taken coordinate arrays. -/
theorem st5_v8 (V : Valuation τ sig (Elt Ideal)) :
    StableHlo.after hostOps0_5 V (Proc.devRef .tc main_v8)
      = subf (F := Ideal) (s := S800000x3) (φ := .f32) (V (Proc.devRef .tc main_v6)) (V (Proc.devRef .tc main_v7)) := by
  dsimp only [hostOps0_5]
  after_results

/-- The length of each row of a three-column array, as a column. -/
def normOf (r : FVec Ideal S800000x3 .f32) : FVec Ideal S800000x1 .f32 :=
  Host.sqrt (broadcastInDim S800000x1 ![0] bcast_S800000_S800000x1_0
    (Host.reduceAdd (mulf r r) (constant (F := Ideal) S_ .f32 0x00000000#32) reducesTo_S800000x3_S800000_d1 h_S_))

set_option maxHeartbeats 2000000 in
/-- The lengths of the radial vectors. -/
theorem st6_v9 (V : Valuation τ sig (Elt Ideal)) :
    StableHlo.after hostOps0_6 V (Proc.devRef .tc main_v9)
      = wrT (.of main_v9 : StableHlo.TRef sig ⟨S800000x1, .f32⟩) (normOf (rdT (.of main_v8 : StableHlo.TRef sig ⟨S800000x3, .f32⟩) V)) := by
  after_results_simp
  repeat rw [ofBuf_toBuf_self]
  unfold wrT rdT normOf
  with_reducible rfl

set_option maxHeartbeats 2000000 in
/-- The lengths floored at the small constant. -/
theorem st7_v11 (V : Valuation τ sig (Elt Ideal)) :
    StableHlo.after hostOps0_7 V (Proc.devRef .tc main_v11)
      = maximumf (V (Proc.devRef .tc main_v9) : FVec Ideal S800000x1 .f32)
          (broadcastInDim S800000x1 ![] bcast_S_S800000x1 (constant (F := Ideal) S_ .f32 0x322BCC77#32)) := by
  dsimp only [hostOps0_7]
  after_results_simp
  try rfl

set_option maxHeartbeats 2000000 in
/-- The messages summed into their first end nodes. -/
theorem st10_v29 (V : Valuation τ sig (Elt Ideal)) :
    StableHlo.after hostOps1 V (Proc.devRef .tc main_v29)
      = aggK (V (Proc.devRef .tc main_v1)) (V (Proc.devRef .tc main_v26_0)) := by
  dsimp only [hostOps1]
  after_results_simp
  try rfl

/-- The coordinate update from its five ingredients: the coordinates, the first end nodes, the radial
    vectors, their floored lengths and the coordinate weights. -/
def posOf (x1 : FVec Ideal S50000x3 .f32) (idx : IVec S800000 32) (r : FVec Ideal S800000x3 .f32)
    (n cd : FVec Ideal S800000x1 .f32) : FVec Ideal S50000x3 .f32 :=
  Host.scatterAdd scatter_S50000x3_S800000x1_S800000x3_1_0_0_1 x1 (wrapK idx)
    (mulf (broadcastInDim S800000x3 ![0, 1] bcast_S800000x1_S800000x3_0_1 cd)
      (Host.divf r (broadcastInDim S800000x3 ![0, 1] bcast_S800000x1_S800000x3_0_1 n)))

set_option maxHeartbeats 2000000 in
/-- The new coordinates. -/
theorem st12_v48 (V : Valuation τ sig (Elt Ideal)) :
    StableHlo.after hostOps2 V (Proc.devRef .tc main_v48)
      = posOf (V (Proc.devRef .tc main_arg1)) (V (Proc.devRef .tc main_v1)) (V (Proc.devRef .tc main_v8))
          (V (Proc.devRef .tc main_v11)) (V (Proc.devRef .tc main_v26_1)) := by
  dsimp only [hostOps2]
  after_results_simp
  try rfl

/-! ## The chain read at the buffers the stretches read -/

theorem W1_arg (c : Dev nD) (r : Ref sig .tc) (h0 : r ∉ hostOps0_W) :
    W1 m ρ c (Proc.devRef .tc r) = m ((c : Thread nD τ).loc r) :=
  (W1_of m ρ c r h0).trans (W0_eq m ρ c r)

theorem W1_v1 (c : Dev nD) : W1 m ρ c (Proc.devRef .tc main_v1) = rowK (m ((c : Thread nD τ).loc main_arg2)) :=
  st0_v1 (W0 m ρ c)
theorem W1_v3 (c : Dev nD) : W1 m ρ c (Proc.devRef .tc main_v3) = colK (m ((c : Thread nD τ).loc main_arg2)) :=
  st0_v3 (W0 m ρ c)

theorem W2_v3 (c : Dev nD) : W2 m ρ c (Proc.devRef .tc main_v3) = colK (m ((c : Thread nD τ).loc main_arg2)) :=
  (W2_of m ρ c main_v3 (by decide)).trans (W1_v3 m ρ c)
theorem W2_arg0 (c : Dev nD) : W2 m ρ c (Proc.devRef .tc main_arg0) = (m ((c : Thread nD τ).loc main_arg0)) :=
  (W2_of m ρ c main_arg0 (by decide)).trans (W1_arg m ρ c main_arg0 (by decide))
theorem W3_v1 (c : Dev nD) : W3 m ρ c (Proc.devRef .tc main_v1) = rowK (m ((c : Thread nD τ).loc main_arg2)) :=
  (W3_of m ρ c main_v1 (by decide)).trans ((W2_of m ρ c main_v1 (by decide)).trans (W1_v1 m ρ c))
theorem W3_arg1 (c : Dev nD) : W3 m ρ c (Proc.devRef .tc main_arg1) = (m ((c : Thread nD τ).loc main_arg1)) :=
  (W3_of m ρ c main_arg1 (by decide)).trans ((W2_of m ρ c main_arg1 (by decide)).trans (W1_arg m ρ c main_arg1 (by decide)))
theorem W4_v3 (c : Dev nD) : W4 m ρ c (Proc.devRef .tc main_v3) = colK (m ((c : Thread nD τ).loc main_arg2)) :=
  (W4_of m ρ c main_v3 (by decide)).trans ((W3_of m ρ c main_v3 (by decide)).trans (W2_v3 m ρ c))
theorem W4_arg1 (c : Dev nD) : W4 m ρ c (Proc.devRef .tc main_arg1) = (m ((c : Thread nD τ).loc main_arg1)) :=
  (W4_of m ρ c main_arg1 (by decide)).trans (W3_arg1 m ρ c)

/-! ## The taken arrays, the radial vectors and their lengths, where they are written -/

theorem W2_v4 (c : Dev nD) : W2 m ρ c (Proc.devRef .tc main_v4) = takeK128 (m ((c : Thread nD τ).loc main_arg0)) (rowK (m ((c : Thread nD τ).loc main_arg2))) :=
  (st1_v4 (W1 m ρ c)).trans ((wrT_main_v4 _).trans (congrArg₂ takeK128
    ((rdT_main_arg0 _).trans (W1_arg m ρ c main_arg0 (by decide))) ((rdT_main_v1 _).trans (W1_v1 m ρ c))))
theorem W3_v5 (c : Dev nD) : W3 m ρ c (Proc.devRef .tc main_v5) = takeK128 (m ((c : Thread nD τ).loc main_arg0)) (colK (m ((c : Thread nD τ).loc main_arg2))) :=
  (st2_v5 (W2 m ρ c)).trans ((wrT_main_v5 _).trans (congrArg₂ takeK128
    ((rdT_main_arg0 _).trans (W2_arg0 m ρ c)) ((rdT_main_v3 _).trans (W2_v3 m ρ c))))
theorem W4_v6 (c : Dev nD) : W4 m ρ c (Proc.devRef .tc main_v6) = takeK3 (m ((c : Thread nD τ).loc main_arg1)) (rowK (m ((c : Thread nD τ).loc main_arg2))) :=
  (st3_v6 (W3 m ρ c)).trans ((wrT_main_v6 _).trans (congrArg₂ takeK3
    ((rdT_main_arg1 _).trans (W3_arg1 m ρ c)) ((rdT_main_v1 _).trans (W3_v1 m ρ c))))
theorem W5_v7 (c : Dev nD) : W5 m ρ c (Proc.devRef .tc main_v7) = takeK3 (m ((c : Thread nD τ).loc main_arg1)) (colK (m ((c : Thread nD τ).loc main_arg2))) :=
  (st4_v7 (W4 m ρ c)).trans ((wrT_main_v7 _).trans (congrArg₂ takeK3
    ((rdT_main_arg1 _).trans (W4_arg1 m ρ c)) ((rdT_main_v3 _).trans (W4_v3 m ρ c))))

theorem W6_v8 (c : Dev nD) : W6 m ρ c (Proc.devRef .tc main_v8) = radialK (m ((c : Thread nD τ).loc main_arg1)) (m ((c : Thread nD τ).loc main_arg2)) :=
  (st5_v8 (W5 m ρ c)).trans (congrArg₂ subf ((W5_of m ρ c main_v6 (by decide)).trans (W4_v6 m ρ c)) (W5_v7 m ρ c))

theorem W7_v9 (c : Dev nD) : W7 m ρ c (Proc.devRef .tc main_v9) = normOf (radialK (m ((c : Thread nD τ).loc main_arg1)) (m ((c : Thread nD τ).loc main_arg2))) :=
  (st6_v9 (W6 m ρ c)).trans ((wrT_main_v9 _).trans (congrArg normOf ((rdT_main_v8 _).trans (W6_v8 m ρ c))))

theorem W8_v11 (c : Dev nD) : W8 m ρ c (Proc.devRef .tc main_v11) = radK (m ((c : Thread nD τ).loc main_arg1)) (m ((c : Thread nD τ).loc main_arg2)) :=
  (st7_v11 (W7 m ρ c)).trans (congrArg (fun z : FVec Ideal S800000x1 .f32 => maximumf z
    (broadcastInDim S800000x1 ![] bcast_S_S800000x1 (constant (F := Ideal) S_ .f32 0x322BCC77#32))) (W7_v9 m ρ c))

theorem W8_v1 (c : Dev nD) : W8 m ρ c (Proc.devRef .tc main_v1) = rowK (m ((c : Thread nD τ).loc main_arg2)) :=
  (W8_eq_W1 m ρ c main_v1 (by decide) (by decide) (by decide) (by decide) (by decide) (by decide) (by decide)).trans (W1_v1 m ρ c)
theorem W8_v8 (c : Dev nD) : W8 m ρ c (Proc.devRef .tc main_v8) = radialK (m ((c : Thread nD τ).loc main_arg1)) (m ((c : Thread nD τ).loc main_arg2)) :=
  (W8_eq_W6 m ρ c main_v8 (by decide) (by decide)).trans (W6_v8 m ρ c)
theorem W8_arg1 (c : Dev nD) : W8 m ρ c (Proc.devRef .tc main_arg1) = (m ((c : Thread nD τ).loc main_arg1)) :=
  (W8_eq_W0 m ρ c main_arg1 (by decide) (by decide) (by decide) (by decide) (by decide) (by decide) (by decide) (by decide)).trans (W0_eq m ρ c main_arg1)

/-! ## What the first region finds in its first three windows -/

/-- Window 0: the features of each edge's first end node. -/
theorem A0 (c : Dev nD) :
    (V8 m ρ c (Pipeline.arrRef spec0 0) : A2 800000 128) = takeK128 (m ((c : Thread nD τ).loc main_arg0)) (rowK (m ((c : Thread nD τ).loc main_arg2))) :=
  (W8_eq_W2 m ρ c main_v4 (by decide) (by decide) (by decide) (by decide) (by decide) (by decide)).trans (W2_v4 m ρ c)

/-- Window 1: the features of each edge's second end node. -/
theorem A1 (c : Dev nD) :
    (V8 m ρ c (Pipeline.arrRef spec0 1) : A2 800000 128) = takeK128 (m ((c : Thread nD τ).loc main_arg0)) (colK (m ((c : Thread nD τ).loc main_arg2))) :=
  (W8_eq_W3 m ρ c main_v5 (by decide) (by decide) (by decide) (by decide) (by decide)).trans (W3_v5 m ρ c)

/-- Window 2: the floored lengths of the radial vectors. -/
theorem A2' (c : Dev nD) :
    (V8 m ρ c (Pipeline.arrRef spec0 2) : A2 800000 1) = radK (m ((c : Thread nD τ).loc main_arg1)) (m ((c : Thread nD τ).loc main_arg2)) :=
  W8_v11 m ρ c

/-! ## What the second region finds in its window 1, and the returned coordinates -/

/-- Window 1 of the second region: the first region's messages summed into their first end nodes. -/
theorem B1 (c : Dev nD) :
    (V10 m ρ c (Pipeline.arrRef spec1 1) : A2 50000 128)
      = aggK (rowK (m ((c : Thread nD τ).loc main_arg2))) ((dat0 (V8 m ρ) c).arrAt 13 cfg0.N) :=
  (st10_v29 (W9 m ρ c)).trans (congrArg₂ aggK ((W9_of m ρ c main_v1 (by decide)).trans (W8_v1 m ρ c)) (W9_arr m ρ c 13))

theorem posOf_congr {x1 x1' : FVec Ideal S50000x3 .f32} {idx idx' : IVec S800000 32} {r r' : FVec Ideal S800000x3 .f32}
    {n n' cd cd' : FVec Ideal S800000x1 .f32} (h1 : x1 = x1') (h2 : idx = idx') (h3 : r = r') (h4 : n = n') (h5 : cd = cd') :
    posOf x1 idx r n cd = posOf x1' idx' r' n' cd' := by
  subst h1 h2 h3 h4 h5; rfl

theorem W11_v11 (c : Dev nD) : W11 m ρ c (Proc.devRef .tc main_v11) = radK (m ((c : Thread nD τ).loc main_arg1)) (m ((c : Thread nD τ).loc main_arg2)) :=
  (W11_of m ρ c main_v11 (by decide)).trans ((W10_of m ρ c main_v11 (by decide)).trans
    ((W9_arr m ρ c 2).trans ((((dat0 (V8 m ρ) c).arrAt_in 2 rfl _).trans (A_eq0 (V8 m ρ) c 2)).trans (W8_v11 m ρ c))))

/-- The second result: the coordinates moved along the radial vectors by the first region's coordinate weights. -/
theorem res1 (c : Dev nD) :
    (W12 m ρ c (Proc.devRef .tc main_v48) : A2 50000 3)
      = posK (m ((c : Thread nD τ).loc main_arg1)) (m ((c : Thread nD τ).loc main_arg2)) ((dat0 (V8 m ρ) c).arrAt 14 cfg0.N) :=
  (st12_v48 (W11 m ρ c)).trans (posOf_congr
    ((W11_eq_W8 m ρ c main_arg1 (by decide) (by decide) (by decide)).trans (W8_arg1 m ρ c))
    ((W11_eq_W8 m ρ c main_v1 (by decide) (by decide) (by decide)).trans (W8_v1 m ρ c))
    ((W11_eq_W8 m ρ c main_v8 (by decide) (by decide) (by decide)).trans (W8_v8 m ρ c))
    (W11_v11 m ρ c)
    ((W11_of m ρ c main_v26_1 (by decide)).trans ((W10_of m ρ c main_v26_1 (by decide)).trans (W9_arr m ρ c 14))))

end Cert.KernelIdeal.Hand

end
-- ==== Proof.KHostRes0.lean ====
/- The node update's output array at the program's end.

   The last stretch of host operations writes only the coordinate update's buffers, so the array of updated node features
   ends the program holding what the second region's write-backs left in it. -/
import proofs.«408380_j34084860461598_1_alg».proof.Proof.Gen.KernelIdeal.Frame
import proofs.«408380_j34084860461598_1_alg».proof.Proof.KWalk

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The updated node features after the whole program: unchanged by the last host stretch, hence the second region's
    eighth array as the region leaves it. -/
theorem res0 (c : Dev nD) : W12 m ρ c (Proc.devRef .tc main_v37) = (dat1 (V10 m ρ) c).arrAt 7 cfg1.N :=
  (W12_of m ρ c main_v37 (by decide)).trans (W11_arr m ρ c 7)

end Cert.KernelIdeal.Hand

end
-- ==== Proof.KHostW0.lean ====
/- The weight arrays the edge layer receives are re-layouts of the weight arrays as given.

   Before the first kernel region the program rearranges each weight argument once: the first edge matrix
   (128 × 257) is cut into its two 128-column halves, each transposed, and its last column, laid out as a row;
   the square matrices are transposed; the bias vectors become one-row arrays; the one-row matrix becomes a
   column and the length-one vector a 1 × 1 array. Each rearrangement is a composition of slices, transposes and
   reshapes, so it is a re-indexing: entry (p, q) of the result is one named entry of the argument. This module
   reads each of the ten arrays at the region's entry back to the argument it was made from (no earlier stretch
   writes an argument) and identifies the re-indexing with the corresponding re-layout of the specification. -/
import proofs.«408380_j34084860461598_1_alg».proof.Proof.Gen.KernelIdeal.Frame
import proofs.«408380_j34084860461598_1_alg».proof.Proof.Spec
import proofs.«408380_j34084860461598_1_alg».proof.Proof.KWalk
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.ShloMosaic.Tactic
open Idealize.SL.Sem

variable (m : (ℓ : Loc nD τ sig) → Buf (Elt Ideal) ℓ) (ρ : Dev nD → PrngReg)

namespace HostW0

/-! ## An argument at the entry of the last stretch before the region -/

/-- An argument array, written by none of the first seven stretches, holds at the seventh boundary what the
    launch memory holds. -/
theorem W7_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m ρ c (Proc.devRef .tc r) = m ((c : Thread nD τ).loc r) :=
  (W7_of m ρ c r h6).trans <| (W6_of m ρ c r h5).trans <| (W5_of m ρ c r h4).trans <| (W4_of m ρ c r h3).trans <|
    (W3_of m ρ c r h2).trans <| (W2_of m ρ c r h1).trans <| (W1_of m ρ c r h0).trans (W0_eq m ρ c r)

/-! ## What the last stretch leaves in each of the ten buffers, as a term over the contents before it -/

section After
variable (W : Valuation τ sig (Elt Ideal))

theorem v13_after : (StableHlo.after hostOps0_7 W (Proc.devRef .tc main_v13) : S128x128.Idx → EReal)
    = transpose S128x128 [1, 0] (extractStridedSlice S128x128 ![0, 0] (W (Proc.devRef .tc main_arg3) : S128x257.Idx → EReal)
        slices_S128x257_S128x128_0_0) transposes_S128x128_S128x128_1_0 := by
  dsimp only [hostOps0_7]; after_results <;> rfl

theorem v15_after : (StableHlo.after hostOps0_7 W (Proc.devRef .tc main_v15) : S128x128.Idx → EReal)
    = transpose S128x128 [1, 0] (extractStridedSlice S128x128 ![0, 128] (W (Proc.devRef .tc main_arg3) : S128x257.Idx → EReal)
        slices_S128x257_S128x128_0_128) transposes_S128x128_S128x128_1_0 := by
  dsimp only [hostOps0_7]; after_results <;> rfl

theorem v18_after : (StableHlo.after hostOps0_7 W (Proc.devRef .tc main_v18) : S1x128.Idx → EReal)
    = shapeCast S1x128 (shapeCast S128 (extractStridedSlice S128x1 ![0, 256] (W (Proc.devRef .tc main_arg3) : S128x257.Idx → EReal)
        slices_S128x257_S128x1_0_256) shapeCasts_S128x1_S128) shapeCasts_S128_S1x128 := by
  dsimp only [hostOps0_7]; after_results <;> rfl

theorem v22_after : (StableHlo.after hostOps0_7 W (Proc.devRef .tc main_v22) : S1x128.Idx → EReal)
    = shapeCast S1x128 (W (Proc.devRef .tc main_arg4) : S128.Idx → EReal) shapeCasts_S128_S1x128 := by
  dsimp only [hostOps0_7]; after_results <;> rfl

theorem v19_after : (StableHlo.after hostOps0_7 W (Proc.devRef .tc main_v19) : S128x128.Idx → EReal)
    = transpose S128x128 [1, 0] (W (Proc.devRef .tc main_arg5) : S128x128.Idx → EReal) transposes_S128x128_S128x128_1_0 := by
  dsimp only [hostOps0_7]; after_results <;> rfl

theorem v23_after : (StableHlo.after hostOps0_7 W (Proc.devRef .tc main_v23) : S1x128.Idx → EReal)
    = shapeCast S1x128 (W (Proc.devRef .tc main_arg6) : S128.Idx → EReal) shapeCasts_S128_S1x128 := by
  dsimp only [hostOps0_7]; after_results <;> rfl

theorem v20_after : (StableHlo.after hostOps0_7 W (Proc.devRef .tc main_v20) : S128x128.Idx → EReal)
    = transpose S128x128 [1, 0] (W (Proc.devRef .tc main_arg11) : S128x128.Idx → EReal) transposes_S128x128_S128x128_1_0 := by
  dsimp only [hostOps0_7]; after_results <;> rfl

theorem v24_after : (StableHlo.after hostOps0_7 W (Proc.devRef .tc main_v24) : S1x128.Idx → EReal)
    = shapeCast S1x128 (W (Proc.devRef .tc main_arg12) : S128.Idx → EReal) shapeCasts_S128_S1x128 := by
  dsimp only [hostOps0_7]; after_results <;> rfl

theorem v21_after : (StableHlo.after hostOps0_7 W (Proc.devRef .tc main_v21) : S128x1.Idx → EReal)
    = transpose S128x1 [1, 0] (W (Proc.devRef .tc main_arg13) : S1x128.Idx → EReal) transposes_S1x128_S128x1_1_0 := by
  dsimp only [hostOps0_7]; after_results <;> rfl

theorem v25_after : (StableHlo.after hostOps0_7 W (Proc.devRef .tc main_v25) : S1x1.Idx → EReal)
    = shapeCast S1x1 (W (Proc.devRef .tc main_arg14) : S1.Idx → EReal) shapeCasts_S1_S1x1 := by
  dsimp only [hostOps0_7]; after_results <;> rfl

end After

/-! ## Each rearrangement read at an entry -/

/-- Entry (p, q) of the transposed left half is entry (q, p) of the matrix. -/
theorem topT_at (a : A2 128 257) (p q : Fin 128) :
    transpose S128x128 [1, 0] (extractStridedSlice S128x128 ![0, 0] a slices_S128x257_S128x128_0_0)
      transposes_S128x128_S128x128_1_0 (ix2 p q) = topT a (ix2 p q) :=
  (transpose_ix2_apply _ _ p q).trans (slice2_axis1_apply 0 a _ q p _ (Nat.zero_add _).symm)

/-- Entry (p, q) of the transposed middle half is entry (q, 128 + p) of the matrix. -/
theorem midT_at (a : A2 128 257) (p q : Fin 128) :
    transpose S128x128 [1, 0] (extractStridedSlice S128x128 ![0, 128] a slices_S128x257_S128x128_0_128)
      transposes_S128x128_S128x128_1_0 (ix2 p q) = midT a (ix2 p q) :=
  (transpose_ix2_apply _ _ p q).trans (slice2_axis1_apply 128 a _ q p _ rfl)

/-- Entry (0, q) of the last column laid out as a row is entry (q, 256) of the matrix: the column is first
    flattened (entry q of the vector is entry (q, 0) of the column), then given a leading unit axis. -/
theorem lastRow_at (a : A2 128 257) (u : Fin 1) (q : Fin 128) :
    shapeCast S1x128 (shapeCast S128 (extractStridedSlice S128x1 ![0, 256] a slices_S128x257_S128x1_0_256)
      shapeCasts_S128x1_S128) shapeCasts_S128_S1x128 (ix2 u q) = lastRow a (ix2 u q) :=
  (shapeCast_a_1a_apply _ _ u q).trans <|
    (shapeCast_apply _ shapeCasts_S128x1_S128 (ix1 q) (ix2 q (0 : Fin 1)) (by
      rw [Shape.rowMajor_val_two, Shape.rowMajor_val_one]
      show q.val * 1 + 0 = q.val
      omega)).trans
    (slice2_axis1_apply 256 a _ q (0 : Fin 1) (256 : Fin 257) rfl)

/-- Entry (0, q) of a vector laid out as a row is entry q of the vector. -/
theorem rowOf_at (b : A1 128) (u : Fin 1) (q : Fin 128) :
    shapeCast S1x128 b shapeCasts_S128_S1x128 (ix2 u q) = rowOf b (ix2 u q) :=
  shapeCast_a_1a_apply _ _ u q

/-- Entry (p, q) of the transpose is entry (q, p). -/
theorem tr_at (a : A2 128 128) (p q : Fin 128) :
    transpose S128x128 [1, 0] a transposes_S128x128_S128x128_1_0 (ix2 p q) = tr a (ix2 p q) :=
  transpose_ix2_apply _ _ p q

/-- Entry (p, 0) of a row turned into a column is entry (0, p) of the row. -/
theorem trCol_at (a : A2 1 128) (p : Fin 128) (u : Fin 1) :
    transpose S128x1 [1, 0] a transposes_S1x128_S128x1_1_0 (ix2 p u) = trCol a (ix2 p u) :=
  transpose_ix2_apply _ _ p u

/-- The single entry of a length-one vector laid out as a 1 × 1 array. -/
theorem oneOf_at (b : A1 1) (u v : Fin 1) :
    shapeCast S1x1 b shapeCasts_S1_S1x1 (ix2 u v) = oneOf b (ix2 u v) :=
  shapeCast_a_1a_apply _ _ u v

end HostW0

open HostW0

/-! ## The ten arrays at the region's entry -/

variable (c : Dev nD)

/-- Window 3: the left half of the first edge matrix, transposed. -/
theorem A3 : (V8 m ρ c (Pipeline.arrRef spec0 3) : A2 128 128) = topT (m ((c : Thread nD τ).loc main_arg3)) := by
  refine (v13_after (W7 m ρ c)).trans ?_
  rw [W7_arg m ρ c main_arg3 (by decide) (by decide) (by decide) (by decide) (by decide) (by decide) (by decide)]
  funext i; rw [eq_ix2 i]; exact topT_at _ _ _

/-- Window 4: the middle half of the first edge matrix, transposed. -/
theorem A4 : (V8 m ρ c (Pipeline.arrRef spec0 4) : A2 128 128) = midT (m ((c : Thread nD τ).loc main_arg3)) := by
  refine (v15_after (W7 m ρ c)).trans ?_
  rw [W7_arg m ρ c main_arg3 (by decide) (by decide) (by decide) (by decide) (by decide) (by decide) (by decide)]
  funext i; rw [eq_ix2 i]; exact midT_at _ _ _

/-- Window 5: the last column of the first edge matrix, as a row. -/
theorem A5 : (V8 m ρ c (Pipeline.arrRef spec0 5) : A2 1 128) = lastRow (m ((c : Thread nD τ).loc main_arg3)) := by
  refine (v18_after (W7 m ρ c)).trans ?_
  rw [W7_arg m ρ c main_arg3 (by decide) (by decide) (by decide) (by decide) (by decide) (by decide) (by decide)]
  funext i; rw [eq_ix2 i]; exact lastRow_at _ _ _

/-- Window 6: the first edge bias, as a row. -/
theorem A6 : (V8 m ρ c (Pipeline.arrRef spec0 6) : A2 1 128) = rowOf (m ((c : Thread nD τ).loc main_arg4)) := by
  refine (v22_after (W7 m ρ c)).trans ?_
  rw [W7_arg m ρ c main_arg4 (by decide) (by decide) (by decide) (by decide) (by decide) (by decide) (by decide)]
  funext i; rw [eq_ix2 i]; exact rowOf_at _ _ _

/-- Window 7: the second edge matrix, transposed. -/
theorem A7 : (V8 m ρ c (Pipeline.arrRef spec0 7) : A2 128 128) = tr (m ((c : Thread nD τ).loc main_arg5)) := by
  refine (v19_after (W7 m ρ c)).trans ?_
  rw [W7_arg m ρ c main_arg5 (by decide) (by decide) (by decide) (by decide) (by decide) (by decide) (by decide)]
  funext i; rw [eq_ix2 i]; exact tr_at _ _ _

/-- Window 8: the second edge bias, as a row. -/
theorem A8 : (V8 m ρ c (Pipeline.arrRef spec0 8) : A2 1 128) = rowOf (m ((c : Thread nD τ).loc main_arg6)) := by
  refine (v23_after (W7 m ρ c)).trans ?_
  rw [W7_arg m ρ c main_arg6 (by decide) (by decide) (by decide) (by decide) (by decide) (by decide) (by decide)]
  funext i; rw [eq_ix2 i]; exact rowOf_at _ _ _

/-- Window 9: the first coordinate matrix, transposed. -/
theorem A9 : (V8 m ρ c (Pipeline.arrRef spec0 9) : A2 128 128) = tr (m ((c : Thread nD τ).loc main_arg11)) := by
  refine (v20_after (W7 m ρ c)).trans ?_
  rw [W7_arg m ρ c main_arg11 (by decide) (by decide) (by decide) (by decide) (by decide) (by decide) (by decide)]
  funext i; rw [eq_ix2 i]; exact tr_at _ _ _

/-- Window 10: the first coordinate bias, as a row. -/
theorem A10 : (V8 m ρ c (Pipeline.arrRef spec0 10) : A2 1 128) = rowOf (m ((c : Thread nD τ).loc main_arg12)) := by
  refine (v24_after (W7 m ρ c)).trans ?_
  rw [W7_arg m ρ c main_arg12 (by decide) (by decide) (by decide) (by decide) (by decide) (by decide) (by decide)]
  funext i; rw [eq_ix2 i]; exact rowOf_at _ _ _

/-- Window 11: the second coordinate matrix (one row), as a column. -/
theorem A11 : (V8 m ρ c (Pipeline.arrRef spec0 11) : A2 128 1) = trCol (m ((c : Thread nD τ).loc main_arg13)) := by
  refine (v21_after (W7 m ρ c)).trans ?_
  rw [W7_arg m ρ c main_arg13 (by decide) (by decide) (by decide) (by decide) (by decide) (by decide) (by decide)]
  funext i; rw [eq_ix2 i]; exact trCol_at _ _ _

/-- Window 12: the second coordinate bias (one entry), as a 1 × 1 array. -/
theorem A12 : (V8 m ρ c (Pipeline.arrRef spec0 12) : A2 1 1) = oneOf (m ((c : Thread nD τ).loc main_arg14)) := by
  refine (v25_after (W7 m ρ c)).trans ?_
  rw [W7_arg m ρ c main_arg14 (by decide) (by decide) (by decide) (by decide) (by decide) (by decide) (by decide)]
  funext i; rw [eq_ix2 i]; exact oneOf_at _ _ _

end Cert.KernelIdeal.Hand

end
-- ==== Proof.KHostW1.lean ====
/- The arrays the node update receives, other than the aggregated messages.

   The second region of the layer reads seven arrays. One is the node-feature argument itself, which nothing before the
   region writes. Five are re-layouts of weight and bias arguments, made by the host operations that stand between the
   two regions: the two 128-column halves of the first node matrix, each transposed; the second node matrix transposed;
   and the two bias vectors laid out as single rows. (The seventh, the aggregated messages, is treated elsewhere.)

   Each re-layout is read entry by entry — a transpose swaps the two coordinates, a column slice shifts the column, a
   vector as a row keeps its one coordinate — and each argument is followed back from the first region's exit to the
   launch memory, no stretch of host operations and no window of the first region having written it. -/
import proofs.«408380_j34084860461598_1_alg».proof.Proof.Gen.KernelIdeal.Frame
import proofs.«408380_j34084860461598_1_alg».proof.Proof.Spec
import proofs.«408380_j34084860461598_1_alg».proof.Proof.KWalk
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.StableHlo

namespace Cert.KernelIdeal.Hand

open Cert.KernelIdeal Cert.KernelIdeal.Gen Cert.Spec Idealize.ShloMosaic.ValueIdx

variable (m : (ℓ : Loc nD τ sig) → Buf (Elt Ideal) ℓ) (ρ : Dev nD → PrngReg)

/-! One re-layout read at an entry, one host operation's result as a function of the contents before its stretch, and
    an argument array followed back to the launch memory. -/
namespace HostW1

/-! ## The re-layouts, entry by entry -/

/-- The transpose of the left 128 columns of a 128 × 256 matrix: entry `(p, q)` is the matrix's entry `(q, p)`. -/
theorem leftT_read (a : A2 128 256) :
    (transpose S128x128 [1, 0] (extractStridedSlice S128x128 ![0, 0] a slices_S128x256_S128x128_0_0) transposes_S128x128_S128x128_1_0 : A2 128 128) = leftT a := by
  funext i
  obtain ⟨p, q, rfl⟩ : ∃ (p q : Fin 128), i = ix2 p q := ⟨i 0, i 1, eq_ix2 i⟩
  refine (transpose_apply [1, 0] _ transposes_S128x128_S128x128_1_0 (ix2 p q) (ix2 q p) (fun b => ?_)).trans ?_
  · match b with
    | ⟨0, _⟩ => rfl
    | ⟨1, _⟩ => rfl
  refine (extractStridedSlice_apply ![0, 0] a slices_S128x256_S128x128_0_0 (ix2 q p) (ix2 q (Fin.castLE (by decide : 128 ≤ 256) p)) (fun b => ?_)).trans ?_
  · match b with
    | ⟨0, _⟩ => show q.val = 0 + q.val; omega
    | ⟨1, _⟩ => show p.val = 0 + p.val; omega
  rfl

/-- The transpose of the right 128 columns: entry `(p, q)` is the matrix's entry `(q, 128 + p)`. -/
theorem rightT_read (a : A2 128 256) :
    (transpose S128x128 [1, 0] (extractStridedSlice S128x128 ![0, 128] a slices_S128x256_S128x128_0_128) transposes_S128x128_S128x128_1_0 : A2 128 128) = rightT a := by
  funext i
  obtain ⟨p, q, rfl⟩ : ∃ (p q : Fin 128), i = ix2 p q := ⟨i 0, i 1, eq_ix2 i⟩
  refine (transpose_apply [1, 0] _ transposes_S128x128_S128x128_1_0 (ix2 p q) (ix2 q p) (fun b => ?_)).trans ?_
  · match b with
    | ⟨0, _⟩ => rfl
    | ⟨1, _⟩ => rfl
  refine (extractStridedSlice_apply ![0, 128] a slices_S128x256_S128x128_0_128 (ix2 q p) (ix2 q (Fin.natAdd 128 p : Fin 256)) (fun b => ?_)).trans ?_
  · match b with
    | ⟨0, _⟩ => show q.val = 0 + q.val; omega
    | ⟨1, _⟩ => show 128 + p.val = 128 + p.val; rfl
  rfl

/-- The transpose of a square matrix. -/
theorem tr_read (a : A2 128 128) :
    (transpose S128x128 [1, 0] a transposes_S128x128_S128x128_1_0 : A2 128 128) = tr a := by
  funext i
  obtain ⟨p, q, rfl⟩ : ∃ (p q : Fin 128), i = ix2 p q := ⟨i 0, i 1, eq_ix2 i⟩
  refine (transpose_apply [1, 0] a transposes_S128x128_S128x128_1_0 (ix2 p q) (ix2 q p) (fun b => ?_)).trans ?_
  · match b with
    | ⟨0, _⟩ => rfl
    | ⟨1, _⟩ => rfl
  rfl

/-- A vector of 128 entries laid out as one row: entry `(0, q)` is the vector's entry `q`. -/
theorem rowOf_read (b : A1 128) : (shapeCast S1x128 b shapeCasts_S128_S1x128 : A2 1 128) = rowOf b := by
  funext i
  obtain ⟨z, q, rfl⟩ : ∃ (z : Fin 1) (q : Fin 128), i = ix2 z q := ⟨i 0, i 1, eq_ix2 i⟩
  refine (shapeCast_apply b shapeCasts_S128_S1x128 (ix2 z q) (ix1 q) ?_).trans ?_
  · rw [Shape.rowMajor_val_one, Shape.rowMajor_val_two]
    show q.val = z.val * 128 + q.val
    have := z.isLt; omega
  rfl

/-! ## The stretch between the two regions, at the buffers the second region receives -/

theorem host_v31 (W : Valuation τ sig (Elt Ideal)) :
    StableHlo.after (hostOps1 (F := Ideal)) W (Proc.devRef .tc main_v31)
      = transpose S128x128 [1, 0] (extractStridedSlice S128x128 ![0, 0] (W (Proc.devRef .tc main_arg7)) slices_S128x256_S128x128_0_0) transposes_S128x128_S128x128_1_0 := by
  dsimp only [hostOps1]
  after_results

theorem host_v33 (W : Valuation τ sig (Elt Ideal)) :
    StableHlo.after (hostOps1 (F := Ideal)) W (Proc.devRef .tc main_v33)
      = transpose S128x128 [1, 0] (extractStridedSlice S128x128 ![0, 128] (W (Proc.devRef .tc main_arg7)) slices_S128x256_S128x128_0_128) transposes_S128x128_S128x128_1_0 := by
  dsimp only [hostOps1]
  after_results

theorem host_v34 (W : Valuation τ sig (Elt Ideal)) :
    StableHlo.after (hostOps1 (F := Ideal)) W (Proc.devRef .tc main_v34)
      = transpose S128x128 [1, 0] (W (Proc.devRef .tc main_arg9)) transposes_S128x128_S128x128_1_0 := by
  dsimp only [hostOps1]
  after_results

theorem host_v35 (W : Valuation τ sig (Elt Ideal)) :
    StableHlo.after (hostOps1 (F := Ideal)) W (Proc.devRef .tc main_v35)
      = shapeCast S1x128 (W (Proc.devRef .tc main_arg8)) shapeCasts_S128_S1x128 := by
  dsimp only [hostOps1]
  after_results
  rfl

theorem host_v36 (W : Valuation τ sig (Elt Ideal)) :
    StableHlo.after (hostOps1 (F := Ideal)) W (Proc.devRef .tc main_v36)
      = shapeCast S1x128 (W (Proc.devRef .tc main_arg10)) shapeCasts_S128_S1x128 := by
  dsimp only [hostOps1]
  after_results
  rfl

/-! ## An argument array at the first region's exit is the argument -/

/-- A buffer that no host stretch before the first region writes, and that is no array of the first region's windows,
    holds at the first region's exit what was launched. -/
theorem at9 (c : Dev nD) (r : Ref sig .tc) (h9 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) :
    W9 m ρ c (Proc.devRef .tc r) = m ((c : Thread nD τ).loc r) :=
  (W9_of m ρ c r h9).trans ((W8_eq_W0 m ρ c r h0 h1 h2 h3 h4 h5 h6 h7).trans (W0_eq m ρ c r))

theorem at9_arg0 (c : Dev nD) : W9 m ρ c (Proc.devRef .tc main_arg0) = m ((c : Thread nD τ).loc main_arg0) :=
  at9 m ρ c main_arg0 (by decide) (by decide) (by decide) (by decide) (by decide) (by decide) (by decide) (by decide) (by decide)
theorem at9_arg7 (c : Dev nD) : W9 m ρ c (Proc.devRef .tc main_arg7) = m ((c : Thread nD τ).loc main_arg7) :=
  at9 m ρ c main_arg7 (by decide) (by decide) (by decide) (by decide) (by decide) (by decide) (by decide) (by decide) (by decide)
theorem at9_arg8 (c : Dev nD) : W9 m ρ c (Proc.devRef .tc main_arg8) = m ((c : Thread nD τ).loc main_arg8) :=
  at9 m ρ c main_arg8 (by decide) (by decide) (by decide) (by decide) (by decide) (by decide) (by decide) (by decide) (by decide)
theorem at9_arg9 (c : Dev nD) : W9 m ρ c (Proc.devRef .tc main_arg9) = m ((c : Thread nD τ).loc main_arg9) :=
  at9 m ρ c main_arg9 (by decide) (by decide) (by decide) (by decide) (by decide) (by decide) (by decide) (by decide) (by decide)
theorem at9_arg10 (c : Dev nD) : W9 m ρ c (Proc.devRef .tc main_arg10) = m ((c : Thread nD τ).loc main_arg10) :=
  at9 m ρ c main_arg10 (by decide) (by decide) (by decide) (by decide) (by decide) (by decide) (by decide) (by decide) (by decide)

end HostW1

/-! ## The arrays the second region receives -/

/-- The node features: the argument itself, which nothing before the second region writes. -/
theorem B0 (c : Dev nD) : V10 m ρ c (Pipeline.arrRef spec1 0) = m ((c : Thread nD τ).loc main_arg0) := by
  show W10 m ρ c (Proc.devRef .tc main_arg0) = _
  exact (W10_of m ρ c main_arg0 (by decide)).trans (HostW1.at9_arg0 m ρ c)

/-- The first layer's weights against the node features: the left half of the layer's matrix, transposed. -/
theorem B2 (c : Dev nD) : (V10 m ρ c (Pipeline.arrRef spec1 2) : A2 128 128) = leftT (m ((c : Thread nD τ).loc main_arg7)) := by
  show StableHlo.after (hostOps1 (F := Ideal)) (W9 m ρ c) (Proc.devRef .tc main_v31) = _
  rw [HostW1.host_v31, HostW1.at9_arg7 m ρ c]
  exact HostW1.leftT_read _

/-- The first layer's weights against the aggregated messages: the right half, transposed. -/
theorem B3 (c : Dev nD) : (V10 m ρ c (Pipeline.arrRef spec1 3) : A2 128 128) = rightT (m ((c : Thread nD τ).loc main_arg7)) := by
  show StableHlo.after (hostOps1 (F := Ideal)) (W9 m ρ c) (Proc.devRef .tc main_v33) = _
  rw [HostW1.host_v33, HostW1.at9_arg7 m ρ c]
  exact HostW1.rightT_read _

/-- The first layer's bias, as a row. -/
theorem B4 (c : Dev nD) : (V10 m ρ c (Pipeline.arrRef spec1 4) : A2 1 128) = rowOf (m ((c : Thread nD τ).loc main_arg8)) := by
  show StableHlo.after (hostOps1 (F := Ideal)) (W9 m ρ c) (Proc.devRef .tc main_v35) = _
  rw [HostW1.host_v35, HostW1.at9_arg8 m ρ c]
  exact HostW1.rowOf_read _

/-- The second layer's weights, transposed. -/
theorem B5 (c : Dev nD) : (V10 m ρ c (Pipeline.arrRef spec1 5) : A2 128 128) = tr (m ((c : Thread nD τ).loc main_arg9)) := by
  show StableHlo.after (hostOps1 (F := Ideal)) (W9 m ρ c) (Proc.devRef .tc main_v34) = _
  rw [HostW1.host_v34, HostW1.at9_arg9 m ρ c]
  exact HostW1.tr_read _

/-- The second layer's bias, as a row. -/
theorem B6 (c : Dev nD) : (V10 m ρ c (Pipeline.arrRef spec1 6) : A2 1 128) = rowOf (m ((c : Thread nD τ).loc main_arg10)) := by
  show StableHlo.after (hostOps1 (F := Ideal)) (W9 m ρ c) (Proc.devRef .tc main_v36) = _
  rw [HostW1.host_v36, HostW1.at9_arg10 m ρ c]
  exact HostW1.rowOf_read _

end Cert.KernelIdeal.Hand

end
-- ==== Proof.R0Value.lean ====
/- The edge region's two output arrays, entry by entry.

   The first region of the layer walks the 800000 edges in 200 blocks of 4000 rows. At each block it reads the rows of
   the two gathered feature arrays and of the one-column distance array, and the whole of ten small arrays (the
   weights and bias rows of four affine layers), and writes the same rows of two outputs: the messages, 128 per edge,
   and the coordinate weight, one per edge. A message entry depends only on its own row of the three row arrays: two
   affine layers with the gate x · σ(x) between them. The coordinate weight of an edge is a further two-layer
   perceptron of that edge's message row, followed by tanh and a fixed scale; the region computes it from the message
   block it has just formed, which is why it is stated here over the message ARRAY.

   This file shows that after the region the two output arrays are those two functions of the arrays as the region
   found them. Three steps: a block's arithmetic read at one entry (each matrix product into a zero accumulator is a
   128-term sum of row times column, each broadcast reads a row, a column or a single entry); each window's block
   located in its array (the row blocks move with the grid point, block t holding rows 4000 t … 4000 t + 3999, and the
   weights do not move); and the 200 blocks of rows together covering each output array. -/
import proofs.«408380_j34084860461598_1_alg».proof.Proof.Gen.KernelIdeal.Frame
import proofs.«408380_j34084860461598_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Cert.Spec Idealize.ShloMosaic.ValueIdx

variable (V : (c : Dev nD) → (b : Ref sig .tc) → Buf (Elt Ideal) ((c : Thread nD τ).loc b))

/-! One entry of each stored block, the place of each block in its array, and the 200 row blocks covering the arrays. -/
namespace R0

/-! ## The two matrix products at an entry

The products of the edge blocks contract the second axis of a 4000 × 128 left factor with the first axis of a
128 × 128 (or, for the last layer of the coordinate weight, 128 × 1) right factor. The facts below say which entries of
the two factors meet at output entry `i` and contraction position `q`: the left factor's row is the output's row and its
column is `q`; the right factor's row is `q` and its column is the output's column. -/

/-- Left operand's row coordinate under the 128-term contraction is the output row. -/
theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 by 128×128 product into a zero accumulator, entry (p, q): the 128-term row-by-column sum. -/
theorem mm128_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs1_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs1_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs1_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs1_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A 4000×128 by 128×1 product into a zero accumulator, entry (p, q): the 128-term row-by-column sum. -/
theorem mm1_apply (l : FVec Ideal S4000x128 .bf16) (r : FVec Ideal S128x1 .bf16) (p : Fin 4000) (q : Fin 1) :
    matmul dot_S4000x128_S128x1_S4000x1_1_0_0_1_n_n none l r (constant S4000x1 .f32 0x00000000#32) (ix2 p q)
      = ∑ k : Fin 128, l (ix2 p k) * r (ix2 k q) := by
  refine (Ideal.matmul_constant_zero_apply dot_S4000x128_S128x1_S4000x1_1_0_0_1_n_n none l r (ix2 p q)).trans ?_
  rw [← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p q) ((ValueIdx.contrEquiv1 dot_S4000x128_S128x1_S4000x1_1_0_0_1_n_n 128 rfl rfl).symm k) = ix2 p k := funext fun a => Fin.ext (by
    match a with
    | ⟨0, _⟩ => exact lhs1_0 _ _
    | ⟨1, _⟩ => exact (lhs1_1 _ _).trans hk)
  have er : dot_S4000x128_S128x1_S4000x1_1_0_0_1_n_n.rhsIdx (ix2 p q) ((ValueIdx.contrEquiv1 dot_S4000x128_S128x1_S4000x1_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ## Broadcasts of a row, of a column and of a single entry, read at an entry -/

theorem bcastRow_apply {α : Type} (x : S1x128.Idx → α) (r : Fin 4000) (j : Fin 128) :
    broadcastTo S4000x128 x broadcasts_S1x128_S4000x128 (ix2 r j) = x (ix2 0 j) :=
  broadcastTo_apply x _ (ix2 r j) (ix2 0 j) (fun a => by match a with | ⟨0, _⟩ => rfl | ⟨1, _⟩ => rfl)

theorem bcastCol_apply {α : Type} (x : S4000x1.Idx → α) (r : Fin 4000) (j : Fin 128) :
    broadcastTo S4000x128 x broadcasts_S4000x1_S4000x128 (ix2 r j) = x (ix2 r 0) :=
  broadcastTo_apply x _ (ix2 r j) (ix2 r 0) (fun a => by match a with | ⟨0, _⟩ => rfl | ⟨1, _⟩ => rfl)

theorem bcastOne_apply {α : Type} (x : S1x1.Idx → α) (r : Fin 4000) (z : Fin 1) :
    broadcastTo S4000x1 x broadcasts_S1x1_S4000x1 (ix2 r z) = x (ix2 0 0) :=
  broadcastTo_apply x _ (ix2 r z) (ix2 0 0) (fun a => by match a with | ⟨0, _⟩ => rfl | ⟨1, _⟩ => rfl)

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The two blocks of one grid point, entry by entry -/

/-- The message block at row r, column j: the second affine layer of the gated first layer, over the rows of the
    point's blocks. -/
theorem pay2_apply (x0 x1 : Vec Ideal S4000x128 .f32) (x2 : Vec Ideal S4000x1 .f32) (x3 x4 : Vec Ideal S128x128 .f32)
    (x5 x6 : Vec Ideal S1x128 .f32) (x7 : Vec Ideal S128x128 .f32) (x8 : Vec Ideal S1x128 .f32) (r : Fin 4000) (j : Fin 128) :
    k0_pay2 (F := Ideal) x0 x1 x2 x3 x4 x5 x6 x7 x8 (ix2 r j)
      = (∑ k : Fin 128, silu ((((∑ i : Fin 128, x0 (ix2 r i) * x3 (ix2 i k)) + (∑ i : Fin 128, x1 (ix2 r i) * x4 (ix2 i k)))
            + x2 (ix2 r 0) * x5 (ix2 0 k)) + x6 (ix2 0 k)) * x7 (ix2 k j)) + x8 (ix2 0 j) := by
  unfold k0_pay2
  simp only [shapeCast_self, addf_apply, mulf_apply, truncf_apply, logistic_apply, mm128_apply, bcastRow_apply, bcastCol_apply]
  rfl

/-- The coordinate-weight block at row r, from a message block m: two layers, then tanh and the fixed scale. -/
theorem pay1_apply (m : FVec Ideal S4000x128 .f32) (x9 : Vec Ideal S128x128 .f32) (x10 : Vec Ideal S1x128 .f32)
    (x11 : Vec Ideal S128x1 .f32) (x12 : Vec Ideal S1x1 .f32) (r : Fin 4000) (z : Fin 1) :
    k0_pay1 (F := Ideal) m x9 x10 x11 x12 (ix2 r z)
      = Ideal.tanh ((∑ k : Fin 128, silu ((∑ j : Fin 128, m (ix2 r j) * x9 (ix2 j k)) + x10 (ix2 0 k)) * x11 (ix2 k 0))
          + x12 (ix2 0 0)) * tenth := by
  obtain rfl : z = 0 := Subsingleton.elim _ _
  unfold k0_pay1
  simp only [shapeCast_self, addf_apply, mulf_apply, truncf_apply, logistic_apply, tanh_apply, mm128_apply, mm1_apply,
    bcastRow_apply, bcastOne_apply, broadcast_apply]
  rfl

/-! ## The blocks of a grid point as parts of the arrays -/

theorem hz : (![0, 0] : Fin 2 → Nat) = fun _ => 0 := funext fun a => by fin_cases a <;> rfl

/-- The block index of every window at every grid point: the three edge inputs and the two outputs move down their
    rows with the point, block t being the t-th; the ten weight windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- Row r of the point's block of the first edge input is row 4000 t + r of the array. -/
theorem blk0_apply (c : Dev nD) (t : Fin cfg0.N) (r : Fin 4000) (i : Fin 128) (e : Fin 800000)
    (he : e.val = 4000 * t.val + r.val) :
    (iblk0 V c 0 t : Vec Ideal S4000x128 .f32) (ix2 r i) = (V c (Pipeline.arrRef spec0 0) : A2 800000 128) (ix2 e i) := by
  obtain ⟨⟨e0, e1⟩, -, -, -, -, -, -, -, -, -, -, -, -, -, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 4000 + 1 * r.val = e.val; rw [e0, he]; omega
  | ⟨1, _⟩ => show win0_0.index t 1 * 128 + 1 * i.val = i.val; rw [e1]; omega

/-- Likewise for the second edge input. -/
theorem blk1_apply (c : Dev nD) (t : Fin cfg0.N) (r : Fin 4000) (i : Fin 128) (e : Fin 800000)
    (he : e.val = 4000 * t.val + r.val) :
    (iblk0 V c 1 t : Vec Ideal S4000x128 .f32) (ix2 r i) = (V c (Pipeline.arrRef spec0 1) : A2 800000 128) (ix2 e i) := by
  obtain ⟨-, ⟨e0, e1⟩, -, -, -, -, -, -, -, -, -, -, -, -, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 4000 + 1 * r.val = e.val; rw [e0, he]; omega
  | ⟨1, _⟩ => show win0_1.index t 1 * 128 + 1 * i.val = i.val; rw [e1]; omega

/-- Likewise for the one-column distance input. -/
theorem blk2_apply (c : Dev nD) (t : Fin cfg0.N) (r : Fin 4000) (i : Fin 1) (e : Fin 800000)
    (he : e.val = 4000 * t.val + r.val) :
    (iblk0 V c 2 t : Vec Ideal S4000x1 .f32) (ix2 r i) = (V c (Pipeline.arrRef spec0 2) : A2 800000 1) (ix2 e i) := by
  obtain ⟨-, -, ⟨e0, e1⟩, -, -, -, -, -, -, -, -, -, -, -, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 4000 + 1 * r.val = e.val; rw [e0, he]; omega
  | ⟨1, _⟩ => show win0_2.index t 1 * 1 + 1 * i.val = i.val; rw [e1]; omega

/-- The point's block of weight window 3 is the whole 128 × 128 array. -/
theorem blk3_apply (c : Dev nD) (t : Fin cfg0.N) (p : Fin 128) (q : Fin 128) :
    (iblk0 V c 3 t : Vec Ideal S128x128 .f32) (ix2 p q) = (V c (Pipeline.arrRef spec0 3) : A2 128 128) (ix2 p q) := by
  obtain ⟨-, -, -, ⟨e0, e1⟩, -, -, -, -, -, -, -, -, -, -, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * p.val = p.val; rw [e0]; omega
  | ⟨1, _⟩ => show win0_3.index t 1 * 128 + 1 * q.val = q.val; rw [e1]; omega

/-- The point's block of weight window 4 is the whole 128 × 128 array. -/
theorem blk4_apply (c : Dev nD) (t : Fin cfg0.N) (p : Fin 128) (q : Fin 128) :
    (iblk0 V c 4 t : Vec Ideal S128x128 .f32) (ix2 p q) = (V c (Pipeline.arrRef spec0 4) : A2 128 128) (ix2 p q) := by
  obtain ⟨-, -, -, -, ⟨e0, e1⟩, -, -, -, -, -, -, -, -, -, -⟩ := idx_facts t
  unfold iblk0
  rw [View.read_apply]
  show V c (Pipeline.arrRef spec0 4) _ = V c (Pipeline.arrRef spec0 4) _
  congr 1
  funext a
  apply Fin.ext
  match a with
  | ⟨0, _⟩ => show win0_4.index t 0 * 128 + 1 * p.val = p.val; rw [e0]; omega
  | ⟨1, _⟩ => show win0_4.index t 1 * 128 + 1 * q.val = q.val; rw [e1]; omega

/-- The point's block of weight window 5 is the whole 1 × 128 array. -/
theorem blk5_apply (c : Dev nD) (t : Fin cfg0.N) (p : Fin 1) (q : Fin 128) :
    (iblk0 V c 5 t : Vec Ideal S1x128 .f32) (ix2 p q) = (V c (Pipeline.arrRef spec0 5) : A2 1 128) (ix2 p q) := by
  obtain ⟨-, -, -, -, -, ⟨e0, e1⟩, -, -, -, -, -, -, -, -, -⟩ := idx_facts t
  unfold iblk0
  rw [View.read_apply]
  show V c (Pipeline.arrRef spec0 5) _ = V c (Pipeline.arrRef spec0 5) _
  congr 1
  funext a
  apply Fin.ext
  match a with
  | ⟨0, _⟩ => show win0_5.index t 0 * 1 + 1 * p.val = p.val; rw [e0]; omega
  | ⟨1, _⟩ => show win0_5.index t 1 * 128 + 1 * q.val = q.val; rw [e1]; omega

/-- The point's block of weight window 6 is the whole 1 × 128 array. -/
theorem blk6_apply (c : Dev nD) (t : Fin cfg0.N) (p : Fin 1) (q : Fin 128) :
    (iblk0 V c 6 t : Vec Ideal S1x128 .f32) (ix2 p q) = (V c (Pipeline.arrRef spec0 6) : A2 1 128) (ix2 p q) := by
  obtain ⟨-, -, -, -, -, -, ⟨e0, e1⟩, -, -, -, -, -, -, -, -⟩ := idx_facts t
  unfold iblk0
  rw [View.read_apply]
  show V c (Pipeline.arrRef spec0 6) _ = V c (Pipeline.arrRef spec0 6) _
  congr 1
  funext a
  apply Fin.ext
  match a with
  | ⟨0, _⟩ => show win0_6.index t 0 * 1 + 1 * p.val = p.val; rw [e0]; omega
  | ⟨1, _⟩ => show win0_6.index t 1 * 128 + 1 * q.val = q.val; rw [e1]; omega

/-- The point's block of weight window 7 is the whole 128 × 128 array. -/
theorem blk7_apply (c : Dev nD) (t : Fin cfg0.N) (p : Fin 128) (q : Fin 128) :
    (iblk0 V c 7 t : Vec Ideal S128x128 .f32) (ix2 p q) = (V c (Pipeline.arrRef spec0 7) : A2 128 128) (ix2 p q) := by
  obtain ⟨-, -, -, -, -, -, -, ⟨e0, e1⟩, -, -, -, -, -, -, -⟩ := idx_facts t
  unfold iblk0
  rw [View.read_apply]
  show V c (Pipeline.arrRef spec0 7) _ = V c (Pipeline.arrRef spec0 7) _
  congr 1
  funext a
  apply Fin.ext
  match a with
  | ⟨0, _⟩ => show win0_7.index t 0 * 128 + 1 * p.val = p.val; rw [e0]; omega
  | ⟨1, _⟩ => show win0_7.index t 1 * 128 + 1 * q.val = q.val; rw [e1]; omega

/-- The point's block of weight window 8 is the whole 1 × 128 array. -/
theorem blk8_apply (c : Dev nD) (t : Fin cfg0.N) (p : Fin 1) (q : Fin 128) :
    (iblk0 V c 8 t : Vec Ideal S1x128 .f32) (ix2 p q) = (V c (Pipeline.arrRef spec0 8) : A2 1 128) (ix2 p q) := by
  obtain ⟨-, -, -, -, -, -, -, -, ⟨e0, e1⟩, -, -, -, -, -, -⟩ := idx_facts t
  unfold iblk0
  rw [View.read_apply]
  show V c (Pipeline.arrRef spec0 8) _ = V c (Pipeline.arrRef spec0 8) _
  congr 1
  funext a
  apply Fin.ext
  match a with
  | ⟨0, _⟩ => show win0_8.index t 0 * 1 + 1 * p.val = p.val; rw [e0]; omega
  | ⟨1, _⟩ => show win0_8.index t 1 * 128 + 1 * q.val = q.val; rw [e1]; omega

/-- The point's block of weight window 9 is the whole 128 × 128 array. -/
theorem blk9_apply (c : Dev nD) (t : Fin cfg0.N) (p : Fin 128) (q : Fin 128) :
    (iblk0 V c 9 t : Vec Ideal S128x128 .f32) (ix2 p q) = (V c (Pipeline.arrRef spec0 9) : A2 128 128) (ix2 p q) := by
  obtain ⟨-, -, -, -, -, -, -, -, -, ⟨e0, e1⟩, -, -, -, -, -⟩ := idx_facts t
  unfold iblk0
  rw [View.read_apply]
  show V c (Pipeline.arrRef spec0 9) _ = V c (Pipeline.arrRef spec0 9) _
  congr 1
  funext a
  apply Fin.ext
  match a with
  | ⟨0, _⟩ => show win0_9.index t 0 * 128 + 1 * p.val = p.val; rw [e0]; omega
  | ⟨1, _⟩ => show win0_9.index t 1 * 128 + 1 * q.val = q.val; rw [e1]; omega

/-- The point's block of weight window 10 is the whole 1 × 128 array. -/
theorem blk10_apply (c : Dev nD) (t : Fin cfg0.N) (p : Fin 1) (q : Fin 128) :
    (iblk0 V c 10 t : Vec Ideal S1x128 .f32) (ix2 p q) = (V c (Pipeline.arrRef spec0 10) : A2 1 128) (ix2 p q) := by
  obtain ⟨-, -, -, -, -, -, -, -, -, -, ⟨e0, e1⟩, -, -, -, -⟩ := idx_facts t
  unfold iblk0
  rw [View.read_apply]
  show V c (Pipeline.arrRef spec0 10) _ = V c (Pipeline.arrRef spec0 10) _
  congr 1
  funext a
  apply Fin.ext
  match a with
  | ⟨0, _⟩ => show win0_10.index t 0 * 1 + 1 * p.val = p.val; rw [e0]; omega
  | ⟨1, _⟩ => show win0_10.index t 1 * 128 + 1 * q.val = q.val; rw [e1]; omega

/-- The point's block of weight window 11 is the whole 128 × 1 array. -/
theorem blk11_apply (c : Dev nD) (t : Fin cfg0.N) (p : Fin 128) (q : Fin 1) :
    (iblk0 V c 11 t : Vec Ideal S128x1 .f32) (ix2 p q) = (V c (Pipeline.arrRef spec0 11) : A2 128 1) (ix2 p q) := by
  obtain ⟨-, -, -, -, -, -, -, -, -, -, -, ⟨e0, e1⟩, -, -, -⟩ := idx_facts t
  unfold iblk0
  rw [View.read_apply]
  show V c (Pipeline.arrRef spec0 11) _ = V c (Pipeline.arrRef spec0 11) _
  congr 1
  funext a
  apply Fin.ext
  match a with
  | ⟨0, _⟩ => show win0_11.index t 0 * 128 + 1 * p.val = p.val; rw [e0]; omega
  | ⟨1, _⟩ => show win0_11.index t 1 * 1 + 1 * q.val = q.val; rw [e1]; omega

/-- The point's block of weight window 12 is the whole 1 × 1 array. -/
theorem blk12_apply (c : Dev nD) (t : Fin cfg0.N) (p : Fin 1) (q : Fin 1) :
    (iblk0 V c 12 t : Vec Ideal S1x1 .f32) (ix2 p q) = (V c (Pipeline.arrRef spec0 12) : A2 1 1) (ix2 p q) := by
  obtain ⟨-, -, -, -, -, -, -, -, -, -, -, -, ⟨e0, e1⟩, -, -⟩ := idx_facts t
  unfold iblk0
  rw [View.read_apply]
  show V c (Pipeline.arrRef spec0 12) _ = V c (Pipeline.arrRef spec0 12) _
  congr 1
  funext a
  apply Fin.ext
  match a with
  | ⟨0, _⟩ => show win0_12.index t 0 * 1 + 1 * p.val = p.val; rw [e0]; omega
  | ⟨1, _⟩ => show win0_12.index t 1 * 1 + 1 * q.val = q.val; rw [e1]; omega

/-! ## One grid point's message block is the block of the message array -/

/-- An entry of the message block is the message of its edge, once the point's input blocks are read as the edge's
    rows of the three edge arrays and as the whole weight arrays. -/
theorem pay2_eq_mij (a0 a1 : A2 800000 128) (a2 : A2 800000 1) (a3 a4 : A2 128 128) (a5 a6 : A2 1 128) (a7 : A2 128 128)
    (a8 : A2 1 128) (b0 b1 : Vec Ideal S4000x128 .f32) (b2 : Vec Ideal S4000x1 .f32) (b3 b4 : Vec Ideal S128x128 .f32)
    (b5 b6 : Vec Ideal S1x128 .f32) (b7 : Vec Ideal S128x128 .f32) (b8 : Vec Ideal S1x128 .f32)
    (e : Fin 800000) (r : Fin 4000) (j : Fin 128)
    (h0 : ∀ i, b0 (ix2 r i) = a0 (ix2 e i)) (h1 : ∀ i, b1 (ix2 r i) = a1 (ix2 e i)) (h2 : ∀ i, b2 (ix2 r i) = a2 (ix2 e i))
    (h3 : ∀ p q, b3 (ix2 p q) = a3 (ix2 p q)) (h4 : ∀ p q, b4 (ix2 p q) = a4 (ix2 p q))
    (h5 : ∀ p q, b5 (ix2 p q) = a5 (ix2 p q)) (h6 : ∀ p q, b6 (ix2 p q) = a6 (ix2 p q))
    (h7 : ∀ p q, b7 (ix2 p q) = a7 (ix2 p q)) (h8 : ∀ p q, b8 (ix2 p q) = a8 (ix2 p q)) :
    k0_pay2 (F := Ideal) b0 b1 b2 b3 b4 b5 b6 b7 b8 (ix2 r j) = mij a0 a1 a2 a3 a4 a5 a6 a7 a8 e j := by
  rw [pay2_apply]
  unfold mij s1
  simp only [h0, h1, h2, h3, h4, h5, h6, h7, h8]

theorem rows_lt (t : Fin cfg0.N) (r : Fin 4000) : 4000 * t.val + r.val < 800000 := by
  have hN : cfg0.N = 200 := N_0
  have := t.isLt
  have := r.isLt
  omega

/-- Entry (r, j) of point t's message block is the message of edge 4000 t + r. -/
theorem entry13 (c : Dev nD) (t : Fin cfg0.N) (r : Fin 4000) (j : Fin 128) :
    k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j)
      = mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (ix2 (⟨4000 * t.val + r.val, rows_lt t r⟩ : Fin 800000) j) := by
  exact pay2_eq_mij (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))
    (iblk0 V c 0 t) (iblk0 V c 1 t) (iblk0 V c 2 t) (iblk0 V c 3 t) (iblk0 V c 4 t) (iblk0 V c 5 t) (iblk0 V c 6 t) (iblk0 V c 7 t) (iblk0 V c 8 t)
    ⟨4000 * t.val + r.val, rows_lt t r⟩ r j
    (fun i => blk0_apply V c t r i _ rfl) (fun i => blk1_apply V c t r i _ rfl) (fun i => blk2_apply V c t r i _ rfl)
    (blk3_apply V c t) (blk4_apply V c t) (blk5_apply V c t) (blk6_apply V c t) (blk7_apply V c t) (blk8_apply V c t)

/-- A 4000 × 128 block P left at grid point t is block t of an array G as soon as row r of P is row 4000 t + r of G. -/
theorem flushed_of_rows13 (t : Fin cfg0.N) (P : Vec Ideal S4000x128 .f32) (G : A2 800000 128)
    (h : ∀ (r : Fin 4000) (j : Fin 128), P (ix2 r j) = G (ix2 (⟨4000 * t.val + r.val, rows_lt t r⟩ : Fin 800000) j)) :
    (cfg0.win 13).cut (grid0.coords t) P = ((cfg0.win 13).blk t).view.read (Elt Ideal) G := by
  refine funext fun y => ?_
  obtain ⟨r, j, rfl⟩ : ∃ (r : Fin 4000) (j : Fin 128), y = ix2 r j := ⟨y 0, y 1, eq_ix2 y⟩
  obtain ⟨-, -, -, -, -, -, -, -, -, -, -, -, -, ⟨e0, e1⟩, -⟩ := idx_facts t
  have hemb : ((cfg0.win 13).blk t).view.emb (ix2 r j) = ix2 (⟨4000 * t.val + r.val, rows_lt t r⟩ : Fin 800000) j := by
    funext a
    apply Fin.ext
    match a with
    | ⟨0, _⟩ => show win0_13.index t 0 * 4000 + 1 * r.val = 4000 * t.val + r.val; rw [e0]; omega
    | ⟨1, _⟩ => show win0_13.index t 1 * 128 + 1 * j.val = j.val; rw [e1]; omega
  show P (ix2 r j) = G (((cfg0.win 13).blk t).view.emb (ix2 r j))
  rw [hemb]
  exact h r j

/-- What grid point t writes back through output window 13 is block t of the message array. -/
theorem flushed13_eq (c : Dev nD) (t : Fin cfg0.N) :
    (dat0 V c).flushed 13 t = ((cfg0.win 13).blk t).view.read (Elt Ideal)
      (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))) := by
  show (cfg0.win 13).cut (grid0.coords t) ((dat0 V c).after 13 t) = _
  rw [after0_13]
  unfold out0_13
  rw [View.canon_unit_zero hz]
  simp only [View.ld_unit_zero (S := S4000x128) hz, View.ld_unit_zero (S := S4000x1) hz, View.ld_unit_zero (S := S128x128) hz,
    View.ld_unit_zero (S := S1x128) hz]
  exact flushed_of_rows13 t (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t))
    (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))) (fun r j => entry13 V c t r j)

/-- An index of the message array lies in point t's block exactly when each coordinate lies in the block's range. -/
theorem mem_blk13 (t : Fin cfg0.N) (i : S800000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v26_0).slice (win0_13.rect t)).set ↔ _
  rw [View.set_slice_whole, Rect.mem_set_unit]
  exact Iff.rfl

/-- Row e of the message array is written back by grid point e / 4000. -/
theorem cover13 (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 200 := N_0
  have ht : (i 0).val / 4000 < cfg0.N := by rw [hN]; omega
  obtain ⟨-, -, -, -, -, -, -, -, -, -, -, -, -, ⟨e0, e1⟩, -⟩ := idx_facts ⟨(i 0).val / 4000, ht⟩
  refine ⟨⟨(i 0).val / 4000, ht⟩, flush0_13 _, ?_⟩
  rw [mem_blk13]
  intro a
  match a with
  | ⟨0, _⟩ =>
    show win0_13.index ⟨(i 0).val / 4000, ht⟩ (0 : Fin 2) * 4000 ≤ (i 0).val ∧ (i 0).val < win0_13.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_13.index ⟨(i 0).val / 4000, ht⟩ (1 : Fin 2) * 128 ≤ (i 1).val ∧ (i 1).val < win0_13.index ⟨(i 0).val / 4000, ht⟩ (1 : Fin 2) * 128 + 128
    rw [e1]
    omega

/-! ## One grid point's coordinate-weight block is the block of the coordinate-weight array -/

/-- An entry of the coordinate-weight block is the edge's coordinate weight, once the point's message block is read as
    the edge's row of the message array and the four weight blocks as the whole weight arrays. -/
theorem pay1_eq_cdiff (mm : A2 800000 128) (a9 : A2 128 128) (a10 : A2 1 128) (a11 : A2 128 1) (a12 : A2 1 1)
    (m : FVec Ideal S4000x128 .f32) (b9 : Vec Ideal S128x128 .f32) (b10 : Vec Ideal S1x128 .f32)
    (b11 : Vec Ideal S128x1 .f32) (b12 : Vec Ideal S1x1 .f32) (e : Fin 800000) (r : Fin 4000) (z : Fin 1)
    (hm : ∀ j, m (ix2 r j) = mm (ix2 e j)) (h9 : ∀ p q, b9 (ix2 p q) = a9 (ix2 p q))
    (h10 : ∀ p q, b10 (ix2 p q) = a10 (ix2 p q)) (h11 : ∀ p q, b11 (ix2 p q) = a11 (ix2 p q))
    (h12 : ∀ p q, b12 (ix2 p q) = a12 (ix2 p q)) :
    k0_pay1 (F := Ideal) m b9 b10 b11 b12 (ix2 r z) = cdiff mm a9 a10 a11 a12 e := by
  rw [pay1_apply]
  unfold cdiff
  simp only [hm, h9, h10, h11, h12]

/-- Entry r of point t's coordinate-weight block is the coordinate weight of edge 4000 t + r, from the message array. -/
theorem entry14 (c : Dev nD) (t : Fin cfg0.N) (r : Fin 4000) (z : Fin 1) :
    k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t))
        (iblk0 V c 9 t) (iblk0 V c 10 t) (iblk0 V c 11 t) (iblk0 V c 12 t) (ix2 r z)
      = cdiffArr (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
          (V c (Pipeline.arrRef spec0 9)) (V c (Pipeline.arrRef spec0 10)) (V c (Pipeline.arrRef spec0 11)) (V c (Pipeline.arrRef spec0 12)) (ix2 (⟨4000 * t.val + r.val, rows_lt t r⟩ : Fin 800000) (0 : Fin 1)) := by
  exact pay1_eq_cdiff (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
    (V c (Pipeline.arrRef spec0 9)) (V c (Pipeline.arrRef spec0 10)) (V c (Pipeline.arrRef spec0 11)) (V c (Pipeline.arrRef spec0 12))
    (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t))
    (iblk0 V c 9 t) (iblk0 V c 10 t) (iblk0 V c 11 t) (iblk0 V c 12 t)
    ⟨4000 * t.val + r.val, rows_lt t r⟩ r z
    (fun j => entry13 V c t r j)
    (blk9_apply V c t) (blk10_apply V c t) (blk11_apply V c t) (blk12_apply V c t)

/-- A 4000 × 1 block P left at grid point t is block t of a one-column array G as soon as entry r of P is entry 4000 t + r of G. -/
theorem flushed_of_rows14 (t : Fin cfg0.N) (P : Vec Ideal S4000x1 .f32) (G : A2 800000 1)
    (h : ∀ (r : Fin 4000) (z : Fin 1), P (ix2 r z) = G (ix2 (⟨4000 * t.val + r.val, rows_lt t r⟩ : Fin 800000) (0 : Fin 1))) :
    (cfg0.win 14).cut (grid0.coords t) P = ((cfg0.win 14).blk t).view.read (Elt Ideal) G := by
  refine funext fun y => ?_
  obtain ⟨r, z, rfl⟩ : ∃ (r : Fin 4000) (z : Fin 1), y = ix2 r z := ⟨y 0, y 1, eq_ix2 y⟩
  obtain ⟨-, -, -, -, -, -, -, -, -, -, -, -, -, -, ⟨e0, e1⟩⟩ := idx_facts t
  have hemb : ((cfg0.win 14).blk t).view.emb (ix2 r z) = ix2 (⟨4000 * t.val + r.val, rows_lt t r⟩ : Fin 800000) (0 : Fin 1) := by
    funext a
    apply Fin.ext
    match a with
    | ⟨0, _⟩ => show win0_14.index t 0 * 4000 + 1 * r.val = 4000 * t.val + r.val; rw [e0]; omega
    | ⟨1, _⟩ => show win0_14.index t 1 * 1 + 1 * z.val = 0; rw [e1]; have := z.isLt; omega
  show P (ix2 r z) = G (((cfg0.win 14).blk t).view.emb (ix2 r z))
  rw [hemb]
  exact h r z

/-- What grid point t writes back through output window 14 is block t of the coordinate-weight array. -/
theorem flushed14_eq (c : Dev nD) (t : Fin cfg0.N) :
    (dat0 V c).flushed 14 t = ((cfg0.win 14).blk t).view.read (Elt Ideal)
      (cdiffArr (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
        (V c (Pipeline.arrRef spec0 9)) (V c (Pipeline.arrRef spec0 10)) (V c (Pipeline.arrRef spec0 11)) (V c (Pipeline.arrRef spec0 12))) := by
  show (cfg0.win 14).cut (grid0.coords t) ((dat0 V c).after 14 t) = _
  rw [after0_14]
  unfold out0_14
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x1) hz, View.ld_unit_zero (S := S1x1) hz]
  exact flushed_of_rows14 t
    (k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t))
      (iblk0 V c 9 t) (iblk0 V c 10 t) (iblk0 V c 11 t) (iblk0 V c 12 t))
    (cdiffArr (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
      (V c (Pipeline.arrRef spec0 9)) (V c (Pipeline.arrRef spec0 10)) (V c (Pipeline.arrRef spec0 11)) (V c (Pipeline.arrRef spec0 12)))
    (fun r z => entry14 V c t r z)

/-- An index of the coordinate-weight array lies in point t's block exactly when each coordinate lies in the block's range. -/
theorem mem_blk14 (t : Fin cfg0.N) (i : S800000x1.Idx) :
    i ∈ ((cfg0.win 14).blk t).view.set ↔ ∀ a : Fin 2, win0_14.index t a * S4000x1.size a ≤ (i a).val ∧ (i a).val < win0_14.index t a * S4000x1.size a + S4000x1.size a := by
  show i ∈ ((View.whole main_v26_1).slice (win0_14.rect t)).set ↔ _
  rw [View.set_slice_whole, Rect.mem_set_unit]
  exact Iff.rfl

/-- Row e of the coordinate-weight array is written back by grid point e / 4000. -/
theorem cover14 (i : S800000x1.Idx) :
    ∃ t : Fin cfg0.N, (cfg0.win 14).flush t = true ∧ i ∈ ((cfg0.win 14).blk t).view.set := by
  have hi0 : (i 0).val < 800000 := (i 0).isLt
  have hi1 : (i 1).val < 1 := (i 1).isLt
  have hN : cfg0.N = 200 := N_0
  have ht : (i 0).val / 4000 < cfg0.N := by rw [hN]; omega
  obtain ⟨-, -, -, -, -, -, -, -, -, -, -, -, -, -, ⟨e0, e1⟩⟩ := idx_facts ⟨(i 0).val / 4000, ht⟩
  refine ⟨⟨(i 0).val / 4000, ht⟩, flush0_14 _, ?_⟩
  rw [mem_blk14]
  intro a
  match a with
  | ⟨0, _⟩ =>
    show win0_14.index ⟨(i 0).val / 4000, ht⟩ (0 : Fin 2) * 4000 ≤ (i 0).val ∧ (i 0).val < win0_14.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_14.index ⟨(i 0).val / 4000, ht⟩ (1 : Fin 2) * 1 ≤ (i 1).val ∧ (i 1).val < win0_14.index ⟨(i 0).val / 4000, ht⟩ (1 : Fin 2) * 1 + 1
    rw [e1]
    omega

end R0

/-! ## The two arrays after the region -/

/-- After the edge region the message array holds every edge's message. -/
theorem arr13 (c : Dev nD) : ((dat0 V c).arrAt 13 cfg0.N : A2 800000 128)
    = mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) :=
  (dat0 V c).arrAt_eq_of_cover 13 (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
    (fun t _ => R0.flushed13_eq V c t) R0.cover13

/-- After the edge region the coordinate-weight array holds every edge's coordinate weight, computed from the messages. -/
theorem arr14 (c : Dev nD) : ((dat0 V c).arrAt 14 cfg0.N : A2 800000 1)
    = cdiffArr (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
        (V c (Pipeline.arrRef spec0 9)) (V c (Pipeline.arrRef spec0 10)) (V c (Pipeline.arrRef spec0 11)) (V c (Pipeline.arrRef spec0 12)) :=
  (dat0 V c).arrAt_eq_of_cover 14
    (cdiffArr (mijArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)))
      (V c (Pipeline.arrRef spec0 9)) (V c (Pipeline.arrRef spec0 10)) (V c (Pipeline.arrRef spec0 11)) (V c (Pipeline.arrRef spec0 12)))
    (fun t _ => R0.flushed14_eq V c t) R0.cover14

end Cert.KernelIdeal.Hand

end
-- ==== Proof.R1Value.lean ====
/- The node update's output array, entry by entry.

   The second region of the layer walks the 50000 nodes in ten blocks of 5000 rows. At each block it reads the rows of
   the node features and of the aggregated messages, and the whole of five small arrays (two 128 × 128 weight matrices
   and a bias row for the first layer, one weight matrix and a bias row for the second), and writes the same rows of the
   output. An output entry depends only on its own row of the two row arrays: it is the node's feature plus a two-layer
   perceptron of the feature row and the message row, the first layer gated by x · σ(x).

   This file shows that after the region the output array is that update applied to the arrays as the region found
   them. Three steps: the block's arithmetic read at one entry (three matrix products, each a 128-term sum); each
   window's block located in its array (row blocks move with the grid point, the weights do not move); and the ten
   blocks of rows together covering the array. -/
import proofs.«408380_j34084860461598_1_alg».proof.Proof.Gen.KernelIdeal.Frame
import proofs.«408380_j34084860461598_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Cert.Spec Idealize.ShloMosaic.ValueIdx

variable (V : (c : Dev nD) → (b : Ref sig .tc) → Buf (Elt Ideal) ((c : Thread nD τ).loc b))

/-! One entry of a stored block, the place of each block in its array, and the ten row blocks covering the array. -/
namespace R1

/-! ## One matrix product at an entry

The node block's three products all contract the second axis of a 5000 × 128 left factor with the first axis of a
128 × 128 right factor. The four facts below say which entries of the two factors meet at output entry `i` and
contraction position `q`: the left factor's row is the output's row and its column is `q`; the right factor's row is
`q` and its column is the output's column. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero accumulator, at entry `(p, q)`: the sum over `k` of row `p` of the left factor against
    column `q` of the right factor. -/
theorem prod_apply (l : FVec Ideal S5000x128 .bf16) (r : FVec Ideal S128x128 .bf16) (p : Fin 5000) (q : Fin 128) :
    FloatOps.matmul (F := Ideal) dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The node block's arithmetic at an entry -/

/-- The first layer before its gate, at row `p` and hidden unit `k`: the product of the node's own features with one
    weight matrix, plus the product of its aggregated messages with the other, plus the bias row. -/
theorem hidden_apply (x0 x1 : Vec Ideal S5000x128 .f32) (x2 x3 : Vec Ideal S128x128 .f32) (x4 : Vec Ideal S1x128 .f32)
    (p : Fin 5000) (k : Fin 128) :
    (addf (addf (matmul dot_S5000x128_S128x128_S5000x128_1_0_0_1_n_n none (truncf .bf16 x0 bitsLt_bf16_f32) (truncf .bf16 x2 bitsLt_bf16_f32) (constant (F := Ideal) S5000x128 .f32 0x00000000#32))
                (matmul dot_S5000x128_S128x128_S5000x128_1_0_0_1_n_n none (truncf .bf16 x1 bitsLt_bf16_f32) (truncf .bf16 x3 bitsLt_bf16_f32) (constant (F := Ideal) S5000x128 .f32 0x00000000#32)))
          (broadcastTo S5000x128 x4 broadcasts_S1x128_S5000x128) : FVec Ideal S5000x128 .f32) (ix2 p k)
      = ((∑ i : Fin 128, x0 (ix2 p i) * x2 (ix2 i k)) + (∑ i : Fin 128, x1 (ix2 p i) * x3 (ix2 i k))) + x4 (ix2 (0 : Fin 1) k) := by
  show (FloatOps.matmul (F := Ideal) dot_S5000x128_S128x128_S5000x128_1_0_0_1_n_n none _ _ (constant (F := Ideal) S5000x128 .f32 0x00000000#32) (ix2 p k)
      + FloatOps.matmul (F := Ideal) dot_S5000x128_S128x128_S5000x128_1_0_0_1_n_n none _ _ (constant (F := Ideal) S5000x128 .f32 0x00000000#32) (ix2 p k))
      + broadcastTo S5000x128 x4 broadcasts_S1x128_S5000x128 (ix2 p k) = _
  rw [prod_apply, prod_apply, broadcastTo_1b_ab_apply]
  rfl

/-- Row `p`, feature `q` of the block the body stores: the node's own feature plus the second layer applied to the gated
    first layer, the first layer being the two products (own features, aggregated messages) and the bias. -/
theorem pay_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    k1_pay1 (F := Ideal) x0 x1 x2 x3 x4 x5 x6 (ix2 p q)
      = x0 (ix2 p q) + ((∑ k : Fin 128, silu (((∑ i : Fin 128, x0 (ix2 p i) * x2 (ix2 i k)) + (∑ i : Fin 128, x1 (ix2 p i) * x3 (ix2 i k))) + x4 (ix2 (0 : Fin 1) k)) * x5 (ix2 k q))
          + x6 (ix2 (0 : Fin 1) q)) := by
  unfold k1_pay1
  simp only [shapeCast_self]
  show x0 (ix2 p q) + (FloatOps.matmul (F := Ideal) dot_S5000x128_S128x128_S5000x128_1_0_0_1_n_n none _ _ (constant (F := Ideal) S5000x128 .f32 0x00000000#32) (ix2 p q)
      + broadcastTo S5000x128 x6 broadcasts_S1x128_S5000x128 (ix2 p q)) = _
  rw [prod_apply, broadcastTo_1b_ab_apply]
  refine congrArg (x0 (ix2 p q) + ·) (congrArg (· + x6 (ix2 (0 : Fin 1) q)) (Finset.sum_congr rfl fun k _ => ?_))
  exact congrArg (fun z : EReal => (z * Ideal.logistic z) * x5 (ix2 k q)) (hidden_apply x0 x1 x2 x3 x4 p k)

/-! ## From the body's stores to the stored block -/

theorem hz : (![0, 0] : Fin 2 → Nat) = fun _ => 0 := funext fun a => by fin_cases a <;> rfl

variable {F : FTy → Type} [FloatOps F] in
/-- The body stores once, through the whole staging buffer, what it computed from whole-buffer loads: the buffer ends
    holding the block's arithmetic applied to the seven loaded blocks. -/
theorem out_eq (x0 x1 : Vec F S5000x128 .f32) (x2 x3 : Vec F S128x128 .f32) (x4 : Vec F S1x128 .f32)
    (x5 : Vec F S128x128 .f32) (x6 : Vec F S1x128 .f32) :
    out1_7 x0 x1 x2 x3 x4 x5 x6 = k1_pay1 x0 x1 x2 x3 x4 x5 x6 := by
  unfold out1_7
  rw [View.canon_unit_zero hz]
  simp only [View.ld_unit_zero (S := S5000x128) hz, View.ld_unit_zero (S := S128x128) hz, View.ld_unit_zero (S := S1x128) hz]

/-! ## Where each window's block sits in its array

The grid has ten points. At point `t` the two row windows (node features, aggregated messages) and the output window
hold rows `5000 t … 5000 t + 4999`; the five weight and bias windows hold their whole arrays at every point. -/

theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-! ## The arrays the region finds, and the blocks the windows cut from them -/

/-- The node features as the region finds them. -/
abbrev hArr (c : Dev nD) : A2 50000 128 := V c (Pipeline.arrRef spec1 0)
/-- The aggregated messages. -/
abbrev aggArr (c : Dev nD) : A2 50000 128 := V c (Pipeline.arrRef spec1 1)
/-- The first layer's weights against the node features, -/
abbrev whArr (c : Dev nD) : A2 128 128 := V c (Pipeline.arrRef spec1 2)
/-- against the aggregated messages, -/
abbrev waArr (c : Dev nD) : A2 128 128 := V c (Pipeline.arrRef spec1 3)
/-- and its bias row. -/
abbrev b1Arr (c : Dev nD) : A2 1 128 := V c (Pipeline.arrRef spec1 4)
/-- The second layer's weights -/
abbrev w2Arr (c : Dev nD) : A2 128 128 := V c (Pipeline.arrRef spec1 5)
/-- and bias row. -/
abbrev b2Arr (c : Dev nD) : A2 1 128 := V c (Pipeline.arrRef spec1 6)

abbrev hBlk (c : Dev nD) (t : Fin cfg1.N) : Vec Ideal S5000x128 .f32 := iblk1 V c 0 t
abbrev aggBlk (c : Dev nD) (t : Fin cfg1.N) : Vec Ideal S5000x128 .f32 := iblk1 V c 1 t
abbrev whBlk (c : Dev nD) (t : Fin cfg1.N) : Vec Ideal S128x128 .f32 := iblk1 V c 2 t
abbrev waBlk (c : Dev nD) (t : Fin cfg1.N) : Vec Ideal S128x128 .f32 := iblk1 V c 3 t
abbrev b1Blk (c : Dev nD) (t : Fin cfg1.N) : Vec Ideal S1x128 .f32 := iblk1 V c 4 t
abbrev w2Blk (c : Dev nD) (t : Fin cfg1.N) : Vec Ideal S128x128 .f32 := iblk1 V c 5 t
abbrev b2Blk (c : Dev nD) (t : Fin cfg1.N) : Vec Ideal S1x128 .f32 := iblk1 V c 6 t

/-- Row `r` of the feature block at point `t` is row `5000 t + r` of the feature array. -/
theorem hBlk_apply (c : Dev nD) (t : Fin cfg1.N) (r : Fin 5000) (j : Fin 128) (n : Fin 50000) (hn : n.val = 5000 * t.val + r.val) :
    hBlk V c t (ix2 r j) = hArr V c (ix2 n j) := by
  obtain ⟨⟨e0, e1⟩, -⟩ := idx_facts t
  show V c (Pipeline.arrRef spec1 0) (((cfg1.win 0).blk t).view.emb (ix2 r j)) = V c (Pipeline.arrRef spec1 0) (ix2 n j)
  refine congrArg (V c (Pipeline.arrRef spec1 0)) (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * j.val = j.val; rw [e1]; omega

/-- Likewise for the aggregated messages. -/
theorem aggBlk_apply (c : Dev nD) (t : Fin cfg1.N) (r : Fin 5000) (j : Fin 128) (n : Fin 50000) (hn : n.val = 5000 * t.val + r.val) :
    aggBlk V c t (ix2 r j) = aggArr V c (ix2 n j) := by
  obtain ⟨-, ⟨e0, e1⟩, -⟩ := idx_facts t
  show V c (Pipeline.arrRef spec1 1) (((cfg1.win 1).blk t).view.emb (ix2 r j)) = V c (Pipeline.arrRef spec1 1) (ix2 n j)
  refine congrArg (V c (Pipeline.arrRef spec1 1)) (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * j.val = j.val; rw [e1]; omega

/-- Each weight or bias window holds its whole array at every point. -/
theorem whBlk_apply (c : Dev nD) (t : Fin cfg1.N) (i k : Fin 128) : whBlk V c t (ix2 i k) = whArr V c (ix2 i k) := by
  obtain ⟨-, -, ⟨e0, e1⟩, -⟩ := idx_facts t
  show V c (Pipeline.arrRef spec1 2) (((cfg1.win 2).blk t).view.emb (ix2 i k)) = V c (Pipeline.arrRef spec1 2) (ix2 i k)
  refine congrArg (V c (Pipeline.arrRef spec1 2)) (funext fun a => Fin.ext ?_)
  match a with
  | ⟨0, _⟩ => show win1_2.index t (0 : Fin 2) * 128 + 1 * i.val = i.val; rw [e0]; omega
  | ⟨1, _⟩ => show win1_2.index t (1 : Fin 2) * 128 + 1 * k.val = k.val; rw [e1]; omega

theorem waBlk_apply (c : Dev nD) (t : Fin cfg1.N) (i k : Fin 128) : waBlk V c t (ix2 i k) = waArr V c (ix2 i k) := by
  obtain ⟨-, -, -, ⟨e0, e1⟩, -⟩ := idx_facts t
  show V c (Pipeline.arrRef spec1 3) (((cfg1.win 3).blk t).view.emb (ix2 i k)) = V c (Pipeline.arrRef spec1 3) (ix2 i k)
  refine congrArg (V c (Pipeline.arrRef spec1 3)) (funext fun a => Fin.ext ?_)
  match a with
  | ⟨0, _⟩ => show win1_3.index t (0 : Fin 2) * 128 + 1 * i.val = i.val; rw [e0]; omega
  | ⟨1, _⟩ => show win1_3.index t (1 : Fin 2) * 128 + 1 * k.val = k.val; rw [e1]; omega

theorem b1Blk_apply (c : Dev nD) (t : Fin cfg1.N) (z : Fin 1) (k : Fin 128) : b1Blk V c t (ix2 z k) = b1Arr V c (ix2 z k) := by
  obtain ⟨-, -, -, -, ⟨e0, e1⟩, -⟩ := idx_facts t
  show V c (Pipeline.arrRef spec1 4) (((cfg1.win 4).blk t).view.emb (ix2 z k)) = V c (Pipeline.arrRef spec1 4) (ix2 z k)
  refine congrArg (V c (Pipeline.arrRef spec1 4)) (funext fun a => Fin.ext ?_)
  match a with
  | ⟨0, _⟩ => show win1_4.index t (0 : Fin 2) * 1 + 1 * z.val = z.val; rw [e0]; omega
  | ⟨1, _⟩ => show win1_4.index t (1 : Fin 2) * 128 + 1 * k.val = k.val; rw [e1]; omega

theorem w2Blk_apply (c : Dev nD) (t : Fin cfg1.N) (i k : Fin 128) : w2Blk V c t (ix2 i k) = w2Arr V c (ix2 i k) := by
  obtain ⟨-, -, -, -, -, ⟨e0, e1⟩, -⟩ := idx_facts t
  show V c (Pipeline.arrRef spec1 5) (((cfg1.win 5).blk t).view.emb (ix2 i k)) = V c (Pipeline.arrRef spec1 5) (ix2 i k)
  refine congrArg (V c (Pipeline.arrRef spec1 5)) (funext fun a => Fin.ext ?_)
  match a with
  | ⟨0, _⟩ => show win1_5.index t (0 : Fin 2) * 128 + 1 * i.val = i.val; rw [e0]; omega
  | ⟨1, _⟩ => show win1_5.index t (1 : Fin 2) * 128 + 1 * k.val = k.val; rw [e1]; omega

theorem b2Blk_apply (c : Dev nD) (t : Fin cfg1.N) (z : Fin 1) (k : Fin 128) : b2Blk V c t (ix2 z k) = b2Arr V c (ix2 z k) := by
  obtain ⟨-, -, -, -, -, -, ⟨e0, e1⟩, -⟩ := idx_facts t
  show V c (Pipeline.arrRef spec1 6) (((cfg1.win 6).blk t).view.emb (ix2 z k)) = V c (Pipeline.arrRef spec1 6) (ix2 z k)
  refine congrArg (V c (Pipeline.arrRef spec1 6)) (funext fun a => Fin.ext ?_)
  match a with
  | ⟨0, _⟩ => show win1_6.index t (0 : Fin 2) * 1 + 1 * z.val = z.val; rw [e0]; omega
  | ⟨1, _⟩ => show win1_6.index t (1 : Fin 2) * 128 + 1 * k.val = k.val; rw [e1]; omega

/-! ## What a point writes back, and the whole array -/

/-- Point `t` writes back rows `5000 t … 5000 t + 4999` of the updated features computed from the arrays as the region
    finds them: each entry of the stored block is the update's formula on the matching rows of the two row arrays and
    on the whole weight arrays. -/
theorem flushed_eq (c : Dev nD) (t : Fin cfg1.N) :
    (dat1 V c).flushed 7 t = ((cfg1.win 7).blk t).view.read (Elt Ideal)
      (hnewArr (hArr V c) (aggArr V c) (whArr V c) (waArr V c) (b1Arr V c) (w2Arr V c) (b2Arr V c)) := by
  show (cfg1.win 7).cut (grid1.coords t) ((dat1 V c).after 7 t) = _
  rw [after1_7, out_eq]
  funext y
  obtain ⟨r, j, rfl⟩ : ∃ (r : Fin 5000) (j : Fin 128), y = ix2 r j := ⟨y 0, y 1, eq_ix2 y⟩
  have ht : t.val < 10 := Nat.lt_of_lt_of_eq t.isLt (show cfg1.N = 10 from N_1)
  obtain ⟨-, -, -, -, -, -, -, ⟨e0, e1⟩⟩ := idx_facts t
  have hemb : ((cfg1.win 7).blk t).view.emb (ix2 r j) = ix2 (⟨5000 * t.val + r.val, by omega⟩ : Fin 50000) j :=
    funext fun a => Fin.ext (by
      match a with
      | ⟨0, _⟩ => show win1_7.index t (0 : Fin 2) * 5000 + 1 * r.val = 5000 * t.val + r.val; rw [e0]; omega
      | ⟨1, _⟩ => show win1_7.index t (1 : Fin 2) * 128 + 1 * j.val = j.val; rw [e1]; omega)
  show k1_pay1 (F := Ideal) (hBlk V c t) (aggBlk V c t) (whBlk V c t) (waBlk V c t) (b1Blk V c t) (w2Blk V c t) (b2Blk V c t) (ix2 r j)
    = hnewArr (hArr V c) (aggArr V c) (whArr V c) (waArr V c) (b1Arr V c) (w2Arr V c) (b2Arr V c) (((cfg1.win 7).blk t).view.emb (ix2 r j))
  rw [hemb]
  refine (pay_apply (hBlk V c t) (aggBlk V c t) (whBlk V c t) (waBlk V c t) (b1Blk V c t) (w2Blk V c t) (b2Blk V c t) r j).trans ?_
  have f0 : ∀ i : Fin 128, hBlk V c t (ix2 r i) = hArr V c (ix2 (⟨5000 * t.val + r.val, by omega⟩ : Fin 50000) i) :=
    fun i => hBlk_apply V c t r i _ rfl
  have f1 : ∀ i : Fin 128, aggBlk V c t (ix2 r i) = aggArr V c (ix2 (⟨5000 * t.val + r.val, by omega⟩ : Fin 50000) i) :=
    fun i => aggBlk_apply V c t r i _ rfl
  simp only [f0, f1, whBlk_apply V c t, waBlk_apply V c t, b1Blk_apply V c t, w2Blk_apply V c t, b2Blk_apply V c t]
  rfl

/-- Membership in the output window's block at point `t`, coordinate by coordinate. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v37).slice (win1_7.rect t)).set ↔ _
  rw [View.set_slice_whole, Rect.mem_set_unit]
  exact Iff.rfl

/-- Every row of the array is written back by exactly the point that owns its block of 5000 rows. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨-, -, -, -, -, -, -, ⟨e0, e1⟩⟩ := idx_facts ⟨(i 0).val / 5000, by rw [hN]; omega⟩
  refine ⟨⟨(i 0).val / 5000, by rw [hN]; omega⟩, flush1_7 _, ?_⟩
  rw [mem_blk]
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, _⟩ (1 : Fin 2) * 128 ≤ (i 1).val ∧ (i 1).val < win1_7.index ⟨(i 0).val / 5000, _⟩ (1 : Fin 2) * 128 + 128
    rw [e1]; omega

end R1

/-- After the region the output array holds the updated features of every node, as one function of the seven arrays the
    region found. -/
theorem arr7 (c : Dev nD) :
    ((dat1 V c).arrAt 7 cfg1.N : A2 50000 128) =
      hnewArr (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 V c).arrAt_eq_of_cover 7
    (hnewArr (R1.hArr V c) (R1.aggArr V c) (R1.whArr V c) (R1.waArr V c) (R1.b1Arr V c) (R1.w2Arr V c) (R1.b2Arr V c))
    (fun t _ => R1.flushed_eq V c t) R1.cover

end Cert.KernelIdeal.Hand

end
-- ==== Proof.RefEdge.lean ====
/- The reference's message stage and coordinate-weight stage are the specification's functions.

   At an edge `e` the reference joins the feature rows of the edge's two end nodes and the edge's distance into one
   row of 257 entries and multiplies it with the transposed 128 × 257 weight matrix. Read entry by entry this is a
   257-term sum; regrouped as the sum over columns 0 … 127, plus the sum over columns 128 … 255, plus the column-256
   term, it is the first edge layer `s1` with the weight matrix cut into its two halves and its last column. Only
   associativity of addition of extended reals is used, so nothing has to be finite. The gate is spelled by the
   reference as `x · (1 / (1 + e^{-x}))`, which is `x · σ(x)`. The remaining layers are 128-term sums against plain
   transposes, a bias row added, and for the coordinate weight a `tanh` and the fixed scale. -/
import proofs.«408380_j34084860461598_1_alg».proof.Proof.Gen.ReferenceIdeal.Read
import proofs.«408380_j34084860461598_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Hand

open Cert.ReferenceIdeal Cert.ReferenceIdeal.Read Cert.Spec Idealize.ShloMosaic Idealize.ShloMosaic.ValueIdx
open scoped BigOperators

/-! ## Three facts that mention no stage of the reference -/

/-- The gate as the reference spells it, `x · (1 / (1 + e^{-x}))` with both ones given by their single-precision word,
    is the gate `x · σ(x)`. -/
theorem silu_spelled (x : EReal) :
    x * Ideal.div (Ideal.ofBits .f32 0x3F800000#32) (Ideal.ofBits .f32 0x3F800000#32 + Ideal.exp (-x)) = silu x := by
  rw [Ideal.ofBits_one_f32]; rfl

/-- A sum of 257 terms is the sum of its first 128 terms, plus the sum of its next 128 terms, plus its last term.
    Only associativity of the sum is used. -/
theorem sum_split_257 {M : Type*} [AddCommMonoid M] (f : Fin 257 → M) :
    ∑ q : Fin 257, f q =
      ((∑ i : Fin 128, f (Fin.castLE (by decide : 128 ≤ 257) i)) +
        (∑ i : Fin 128, f (Fin.castLE (by decide : 128 + 128 ≤ 257) (Fin.natAdd 128 i)))) + f 256 := by
  have h1 := Fin.sum_univ_castSucc (n := 256) f
  have h2 := Fin.sum_univ_add (a := 128) (b := 128) (fun i : Fin (128 + 128) => f (Fin.castSucc i))
  rw [h1, h2]; rfl

section Concat
variable {α : Type} (A B : S800000x128.Idx → α) (C : S800000x1.Idx → α)
  (h : Shape.Concatenates ([(⟨S800000x128, A⟩ : (s : Shape) × (s.Idx → α)), ⟨S800000x128, B⟩, ⟨S800000x1, C⟩].map (·.1)) S800000x257 1)

/-- Columns 0 … 127 of the joined row are the first piece. -/
theorem concat_first (e : Fin 800000) (p : Fin 128) :
    concatenate S800000x257 1 [⟨S800000x128, A⟩, ⟨S800000x128, B⟩, ⟨S800000x1, C⟩] h
        (ix2 e (Fin.castLE (by decide : 128 ≤ 257) p)) = A (ix2 e p) :=
  concatenate_apply_piece 1 _ h _ 0 (show 0 < 3 by decide) S800000x128 A rfl rfl 0 rfl (ix2 e p)
    (fun b hb => by match b with | ⟨0, _⟩ => rfl | ⟨1, _⟩ => exact absurd rfl hb)
    (Nat.zero_add _)

/-- Columns 128 … 255 of the joined row are the second piece. -/
theorem concat_second (e : Fin 800000) (p : Fin 128) :
    concatenate S800000x257 1 [⟨S800000x128, A⟩, ⟨S800000x128, B⟩, ⟨S800000x1, C⟩] h
        (ix2 e (Fin.castLE (by decide : 128 + 128 ≤ 257) (Fin.natAdd 128 p))) = B (ix2 e p) :=
  concatenate_apply_piece 1 _ h _ 1 (show 1 < 3 by decide) S800000x128 B rfl rfl 128 rfl (ix2 e p)
    (fun b hb => by match b with | ⟨0, _⟩ => rfl | ⟨1, _⟩ => exact absurd rfl hb)
    rfl

/-- Column 256 of the joined row is the third piece's only column. -/
theorem concat_third (e : Fin 800000) :
    concatenate S800000x257 1 [⟨S800000x128, A⟩, ⟨S800000x128, B⟩, ⟨S800000x1, C⟩] h
        (ix2 e (256 : Fin 257)) = C (ix2 e 0) :=
  concatenate_apply_piece 1 _ h _ 2 (show 2 < 3 by decide) S800000x1 C rfl rfl 256 rfl (ix2 e 0)
    (fun b hb => by match b with | ⟨0, _⟩ => rfl | ⟨1, _⟩ => exact absurd rfl hb)
    rfl
end Concat

/-! ## The stages of the reference, read at an edge and a unit -/

section Stages
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S128x257, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x11 : (⟨S128x128, .f32⟩ : BufTy).Contents (Elt Ideal))
  (x12 : (⟨S128, .f32⟩ : BufTy).Contents (Elt Ideal)) (x13 : (⟨S1x128, .f32⟩ : BufTy).Contents (Elt Ideal))
  (x14 : (⟨S1, .f32⟩ : BufTy).Contents (Elt Ideal))

/-- Columns 0 … 127 of the joined edge row are the first end node's features. -/
theorem v36_first (e : Fin 800000) (p : Fin 128) :
    val_main_v36 (F := Ideal) x0 x1 x2 (ix2 e (Fin.castLE (by decide : 128 ≤ 257) p)) =
      val_main_v28 (F := Ideal) x0 x2 (ix2 e p) :=
  concat_first _ _ _ _ e p

/-- Columns 128 … 255 of the joined edge row are the second end node's features. -/
theorem v36_second (e : Fin 800000) (p : Fin 128) :
    val_main_v36 (F := Ideal) x0 x1 x2 (ix2 e (Fin.castLE (by decide : 128 + 128 ≤ 257) (Fin.natAdd 128 p))) =
      val_main_v35 (F := Ideal) x0 x2 (ix2 e p) :=
  concat_second _ _ _ _ e p

/-- Column 256 of the joined edge row is the edge's distance. -/
theorem v36_third (e : Fin 800000) :
    val_main_v36 (F := Ideal) x0 x1 x2 (ix2 e (256 : Fin 257)) = val_main_v21 (F := Ideal) x1 x2 (ix2 e 0) :=
  concat_third _ _ _ _ e

/-- The first edge product at edge `e`, unit `k`: the joined row against row `k` of the weight matrix. -/
theorem v38_at (e : Fin 800000) (k : Fin 128) :
    val_main_v38 (F := Ideal) x0 x1 x2 x3 (ix2 e k) =
      ∑ q : Fin 257, val_main_v36 (F := Ideal) x0 x1 x2 (ix2 e q) * x3 (ix2 k q) := by
  have hl : ∀ q : Fin 257, lidx_main_v38 (ix2 e k) q = ix2 e q := fun q =>
    funext fun a => Fin.ext (by match a with | ⟨0, _⟩ => rfl | ⟨1, _⟩ => rfl)
  have hr : ∀ q : Fin 257, idx_main_v37 (ridx_main_v38 (ix2 e k) q) = ix2 k q := fun q =>
    funext fun a => Fin.ext (by match a with | ⟨0, _⟩ => rfl | ⟨1, _⟩ => rfl)
  rw [val_main_v38_apply]
  refine Finset.sum_congr rfl fun q _ => ?_
  rw [val_main_v37_apply, hl, hr]

/-- The first edge layer of the reference is `s1`: the 257-term sum splits into the two 128-term sums and the
    distance term, in the grouping `s1` fixes. -/
theorem v41_at (e : Fin 800000) (k : Fin 128) :
    val_main_v41 (F := Ideal) x0 x1 x2 x3 x4 (ix2 e k) =
      s1 (val_main_v28 (F := Ideal) x0 x2) (val_main_v35 (F := Ideal) x0 x2) (val_main_v21 (F := Ideal) x1 x2)
        (topT x3) (midT x3) (lastRow x3) (rowOf x4) e k := by
  have hb : idx_main_v39 (idx_main_v40 (ix2 e k)) = ix1 k :=
    funext fun a => Fin.ext (by match a with | ⟨0, _⟩ => rfl)
  rw [val_main_v41_apply, val_main_v40_apply, val_main_v39_apply, hb, v38_at, sum_split_257, v36_third]
  simp only [v36_first, v36_second]
  rfl

/-- The gated first edge layer. -/
theorem v42_at (i : S800000x128.Idx) :
    val_main_v42 (F := Ideal) x0 x1 x2 x3 x4 i = silu (val_main_v41 (F := Ideal) x0 x1 x2 x3 x4 i) := by
  rw [val_main_v42_apply, val_main_call1_v5_apply, val_main_call1_v4_apply, val_main_call1_cst_0_apply,
    val_main_call1_v3_apply, val_main_call1_v2_apply, val_main_call1_cst_apply, val_main_call1_v1_apply,
    val_main_call1_v0_apply]
  exact silu_spelled _

/-- The second edge layer at edge `e`, unit `j`. -/
theorem v47_at (e : Fin 800000) (j : Fin 128) :
    val_main_v47 (F := Ideal) x0 x1 x2 x3 x4 x5 x6 (ix2 e j) =
      (∑ k : Fin 128, val_main_v42 (F := Ideal) x0 x1 x2 x3 x4 (ix2 e k) * tr x5 (ix2 k j)) + rowOf x6 (ix2 0 j) := by
  have hl : ∀ k : Fin 128, lidx_main_v44 (ix2 e j) k = ix2 e k := fun k =>
    funext fun a => Fin.ext (by match a with | ⟨0, _⟩ => rfl | ⟨1, _⟩ => rfl)
  have hr : ∀ k : Fin 128, idx_main_v43 (ridx_main_v44 (ix2 e j) k) = ix2 j k := fun k =>
    funext fun a => Fin.ext (by match a with | ⟨0, _⟩ => rfl | ⟨1, _⟩ => rfl)
  have hb : idx_main_v45 (idx_main_v46 (ix2 e j)) = ix1 j :=
    funext fun a => Fin.ext (by match a with | ⟨0, _⟩ => rfl)
  rw [val_main_v47_apply, val_main_v46_apply, val_main_v45_apply, hb, val_main_v44_apply]
  refine congrArg (· + x6 (ix1 j)) (Finset.sum_congr rfl fun k _ => ?_)
  rw [val_main_v43_apply, hl, hr]
  rfl

/-- The first coordinate layer at edge `e`, unit `k`, from the edge's message row. -/
theorem v68_at (e : Fin 800000) (k : Fin 128) :
    val_main_v68 (F := Ideal) x0 x1 x2 x3 x4 x5 x6 x11 x12 (ix2 e k) =
      (∑ j : Fin 128, val_main_v47 (F := Ideal) x0 x1 x2 x3 x4 x5 x6 (ix2 e j) * tr x11 (ix2 j k))
        + rowOf x12 (ix2 0 k) := by
  have hl : ∀ j : Fin 128, lidx_main_v65 (ix2 e k) j = ix2 e j := fun j =>
    funext fun a => Fin.ext (by match a with | ⟨0, _⟩ => rfl | ⟨1, _⟩ => rfl)
  have hr : ∀ j : Fin 128, idx_main_v64 (ridx_main_v65 (ix2 e k) j) = ix2 k j := fun j =>
    funext fun a => Fin.ext (by match a with | ⟨0, _⟩ => rfl | ⟨1, _⟩ => rfl)
  have hb : idx_main_v66 (idx_main_v67 (ix2 e k)) = ix1 k :=
    funext fun a => Fin.ext (by match a with | ⟨0, _⟩ => rfl)
  rw [val_main_v68_apply, val_main_v67_apply, val_main_v66_apply, hb, val_main_v65_apply]
  refine congrArg (· + x12 (ix1 k)) (Finset.sum_congr rfl fun j _ => ?_)
  rw [val_main_v64_apply, hl, hr]
  rfl

/-- The gated first coordinate layer. -/
theorem v69_at (i : S800000x128.Idx) :
    val_main_v69 (F := Ideal) x0 x1 x2 x3 x4 x5 x6 x11 x12 i =
      silu (val_main_v68 (F := Ideal) x0 x1 x2 x3 x4 x5 x6 x11 x12 i) := by
  rw [val_main_v69_apply, val_main_call3_v5_apply, val_main_call3_v4_apply, val_main_call3_cst_0_apply,
    val_main_call3_v3_apply, val_main_call3_v2_apply, val_main_call3_cst_apply, val_main_call3_v1_apply,
    val_main_call3_v0_apply]
  exact silu_spelled _

/-- The second coordinate layer at edge `e` (its only column). -/
theorem v74_at (e : Fin 800000) :
    val_main_v74 (F := Ideal) x0 x1 x2 x3 x4 x5 x6 x11 x12 x13 x14 (ix2 e (0 : Fin 1)) =
      (∑ k : Fin 128, val_main_v69 (F := Ideal) x0 x1 x2 x3 x4 x5 x6 x11 x12 (ix2 e k) * trCol x13 (ix2 k 0))
        + oneOf x14 (ix2 0 0) := by
  have hl : ∀ k : Fin 128, lidx_main_v71 (ix2 e (0 : Fin 1)) k = ix2 e k := fun k =>
    funext fun a => Fin.ext (by match a with | ⟨0, _⟩ => rfl | ⟨1, _⟩ => rfl)
  have hr : ∀ k : Fin 128, idx_main_v70 (ridx_main_v71 (ix2 e (0 : Fin 1)) k) = ix2 (0 : Fin 1) k := fun k =>
    funext fun a => Fin.ext (by match a with | ⟨0, _⟩ => rfl | ⟨1, _⟩ => rfl)
  have hb : idx_main_v72 (idx_main_v73 (ix2 e (0 : Fin 1))) = ix1 (0 : Fin 1) :=
    funext fun a => Fin.ext (by match a with | ⟨0, _⟩ => rfl)
  rw [val_main_v74_apply, val_main_v73_apply, val_main_v72_apply, hb, val_main_v71_apply]
  refine congrArg (· + x14 (ix1 (0 : Fin 1))) (Finset.sum_congr rfl fun k _ => ?_)
  rw [val_main_v70_apply, hl, hr]
  rfl

end Stages

/-! ## The two stages as the specification's functions -/

/-- The reference's message array is the specification's `mijArr` of the gathered features, the distance and the
    re-laid weights. -/
theorem ref_mij (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S128x257, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    (val_main_v47 (F := Ideal) x0 x1 x2 x3 x4 x5 x6 : A2 800000 128) =
      mijArr (val_main_v28 (F := Ideal) x0 x2) (val_main_v35 (F := Ideal) x0 x2) (val_main_v21 (F := Ideal) x1 x2)
        (topT x3) (midT x3) (lastRow x3) (rowOf x4) (tr x5) (rowOf x6) := by
  funext i
  obtain ⟨e, j, rfl⟩ : ∃ (e : Fin 800000) (j : Fin 128), i = ix2 e j := ⟨i 0, i 1, eq_ix2 i⟩
  rw [v47_at]
  simp only [v42_at, v41_at]
  rfl

/-- The reference's coordinate-weight array is the specification's `cdiffArr` of the message array and the re-laid
    weights. The message array stays an unopened array. -/
theorem ref_cd (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S128x257, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x11 : (⟨S128x128, .f32⟩ : BufTy).Contents (Elt Ideal))
    (x12 : (⟨S128, .f32⟩ : BufTy).Contents (Elt Ideal)) (x13 : (⟨S1x128, .f32⟩ : BufTy).Contents (Elt Ideal))
    (x14 : (⟨S1, .f32⟩ : BufTy).Contents (Elt Ideal)) :
    (val_main_v77 (F := Ideal) x0 x1 x2 x3 x4 x5 x6 x11 x12 x13 x14 : A2 800000 1) =
      cdiffArr (val_main_v47 (F := Ideal) x0 x1 x2 x3 x4 x5 x6) (tr x11) (rowOf x12) (trCol x13) (oneOf x14) := by
  funext i
  obtain ⟨e, z, rfl⟩ : ∃ (e : Fin 800000) (z : Fin 1), i = ix2 e z := ⟨i 0, i 1, eq_ix2 i⟩
  obtain rfl : z = 0 := Subsingleton.elim z 0
  rw [val_main_v77_apply, val_main_v76_apply, val_main_cst_8_apply, val_main_v75_apply, v74_at]
  simp only [v69_at, v68_at]
  rfl

end Cert.ReferenceIdeal.Hand

end
-- ==== Proof.RefNode.lean ====
/- The reference's node update, entry by entry.

   A node's row of features and its row of aggregated messages are laid side by side into one row of
   256 entries and multiplied by the transposed first node matrix.  A sum over the 256 columns is the
   sum over the first 128 plus the sum over the last 128, and in each half the joined row reads one of
   the two pieces; so the product is the two 128-term sums of the first node layer.  Adding the bias row,
   gating by `x ↦ x · σ(x)` (written out as `x · (1 / (1 + e⁻ˣ))`), multiplying by the transposed second
   matrix, adding the second bias row and the node's own features gives the updated features.

   Only the splitting of a finite sum into two consecutive ranges is used; no product is distributed. -/
import proofs.«408380_j34084860461598_1_alg».proof.Proof.Gen.ReferenceIdeal.Read
import proofs.«408380_j34084860461598_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Hand

open Cert.ReferenceIdeal Cert.ReferenceIdeal.Read Cert.Spec Idealize.ShloMosaic Idealize.ShloMosaic.ValueIdx
open scoped BigOperators

/-! ## A sum over 256 columns -/

/-- A sum over 256 columns is the sum over the first 128 plus the sum over the last 128. -/
theorem sum_halves (f : Fin 256 → EReal) :
    ∑ q : Fin 256, f q =
      (∑ i : Fin 128, f (Fin.castLE (by decide : 128 ≤ 256) i)) + ∑ i : Fin 128, f (Fin.natAdd 128 i : Fin 256) :=
  Fin.sum_univ_add (a := 128) (b := 128) f

/-! ## The joined row reads its two pieces -/

/-- In its first 128 columns the joined row is the node's features. -/
theorem joined_left (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 50000) (i : Fin 128) :
    val_main_v51 (F := Ideal) x0 x1 x2 x3 x4 x5 x6 (ix2 n (Fin.castLE (by decide : 128 ≤ 256) i)) = x0 (ix2 n i) := by
  unfold val_main_v51
  generalize val_main_v50 (F := Ideal) x0 x1 x2 x3 x4 x5 x6 = y
  exact concatenate_pair_apply_left 1 x0 y Gen.concatenates_S50000x128_S50000x128_S50000x256_d1 _ rfl (ix2 n i)
    (fun c => match c with
      | ⟨0, _⟩ => rfl
      | ⟨1, _⟩ => rfl)

/-- In its last 128 columns the joined row is the node's aggregated messages. -/
theorem joined_right (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 50000) (i : Fin 128) :
    val_main_v51 (F := Ideal) x0 x1 x2 x3 x4 x5 x6 (ix2 n (Fin.natAdd 128 i : Fin 256)) =
      val_main_v50 (F := Ideal) x0 x1 x2 x3 x4 x5 x6 (ix2 n i) := by
  unfold val_main_v51
  generalize val_main_v50 (F := Ideal) x0 x1 x2 x3 x4 x5 x6 = y
  exact concatenate_pair_apply_right 1 x0 y Gen.concatenates_S50000x128_S50000x128_S50000x256_d1 _ rfl rfl (ix2 n i)
    (fun c => match c with
      | ⟨0, _⟩ => fun _ => rfl
      | ⟨1, _⟩ => fun hc => absurd rfl hc)
    (Nat.add_comm _ _)

/-! ## The first node layer and its gate -/

/-- The product of the joined row with the transposed first matrix, plus the bias row, is the first node layer. -/
theorem first_layer (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 50000) (k : Fin 128) :
    val_main_v56 (F := Ideal) x0 x1 x2 x3 x4 x5 x6 x7 x8 (ix2 n k) = t1 x0 (val_main_v50 (F := Ideal) x0 x1 x2 x3 x4 x5 x6) (leftT x7) (rightT x7) (rowOf x8) n k := by
  have el : ∀ q : Fin 256, lidx_main_v53 (ix2 n k) q = ix2 n q := fun q =>
    funext fun a => Fin.ext (by match a with | ⟨0, _⟩ => rfl | ⟨1, _⟩ => rfl)
  have er : ∀ q : Fin 256, idx_main_v52 (ridx_main_v53 (ix2 n k) q) = ix2 k q := fun q =>
    funext fun a => Fin.ext (by match a with | ⟨0, _⟩ => rfl | ⟨1, _⟩ => rfl)
  have eb : idx_main_v54 (idx_main_v55 (ix2 n k)) = ix1 k :=
    funext fun a => Fin.ext (by match a with | ⟨0, _⟩ => rfl)
  rw [val_main_v56_apply, val_main_v53_apply, val_main_v55_apply, val_main_v54_apply, eb]
  simp only [val_main_v52_apply, el, er]
  rw [sum_halves]
  simp only [joined_left, joined_right]
  rfl

/-- The gate, computed as `x · (1 / (1 + e⁻ˣ))` with the constant one read off its binary word, is `x · σ(x)`. -/
theorem gated (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 50000) (k : Fin 128) :
    val_main_v57 (F := Ideal) x0 x1 x2 x3 x4 x5 x6 x7 x8 (ix2 n k) = silu (t1 x0 (val_main_v50 (F := Ideal) x0 x1 x2 x3 x4 x5 x6) (leftT x7) (rightT x7) (rowOf x8) n k) := by
  rw [val_main_v57_apply, val_main_call2_v5_apply, val_main_call2_v4_apply, val_main_call2_cst_0_apply,
    val_main_call2_v3_apply, val_main_call2_v2_apply, val_main_call2_cst_apply, val_main_call2_v1_apply,
    val_main_call2_v0_apply, first_layer]
  simp only [Ideal.ofBits_def, Ideal.ofBits_one_f32]
  rfl

/-! ## The second node layer and the update -/

/-- The product of the gated layer with the transposed second matrix, plus the second bias row. -/
theorem second_layer (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (j : Fin 128) :
    val_main_v62 (F := Ideal) x0 x1 x2 x3 x4 x5 x6 x7 x8 x9 x10 (ix2 n j) =
      (∑ k : Fin 128, silu (t1 x0 (val_main_v50 (F := Ideal) x0 x1 x2 x3 x4 x5 x6) (leftT x7) (rightT x7) (rowOf x8) n k) * tr x9 (ix2 k j)) + rowOf x10 (ix2 0 j) := by
  have el : ∀ k : Fin 128, lidx_main_v59 (ix2 n j) k = ix2 n k := fun k =>
    funext fun a => Fin.ext (by match a with | ⟨0, _⟩ => rfl | ⟨1, _⟩ => rfl)
  have er : ∀ k : Fin 128, idx_main_v58 (ridx_main_v59 (ix2 n j) k) = ix2 j k := fun k =>
    funext fun a => Fin.ext (by match a with | ⟨0, _⟩ => rfl | ⟨1, _⟩ => rfl)
  have eb : idx_main_v60 (idx_main_v61 (ix2 n j)) = ix1 j :=
    funext fun a => Fin.ext (by match a with | ⟨0, _⟩ => rfl)
  rw [val_main_v62_apply, val_main_v59_apply, val_main_v61_apply, val_main_v60_apply, eb]
  simp only [val_main_v58_apply, el, er, gated]
  rfl

/-- **The reference's updated node features are the specification's.** -/
theorem ref_hnew (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    (val_main_v63 (F := Ideal) x0 x1 x2 x3 x4 x5 x6 x7 x8 x9 x10 : A2 50000 128) =
      hnewArr x0 (val_main_v50 (F := Ideal) x0 x1 x2 x3 x4 x5 x6) (leftT x7) (rightT x7) (rowOf x8) (tr x9) (rowOf x10) := by
  funext i
  obtain ⟨n, j, rfl⟩ : ∃ (n : Fin 50000) (j : Fin 128), i = ix2 n j := ⟨i 0, i 1, eq_ix2 i⟩
  rw [val_main_v63_apply, second_layer]
  rfl

end Cert.ReferenceIdeal.Hand

end
-- ==== Proof.PreRange.lean ====
/-
  From the precondition to the range of the index array.

  The precondition is a conjunction of sixteen "all" tests of the fifteen argument arrays: fourteen say an array is
  finite, the last two say of the index array e (shape [2, 800000], 32-bit words) that every entry is ≥ 0 and that
  every entry is < 50000, both read as signed words. When the conjunction is one, each conjunct is one; an "all" that is
  one had a one at every position; and a word w with 0 ≤ w < 50000 signed has its sign bit clear, so its unsigned value
  is its signed value and is below 50000.

  For such a word two facts follow that the readers of the index array need: adding 50000 to a negative index (the
  wrap of a from-the-end index) does nothing to it, since it is not negative; and the in-bounds test 0 ≤ w ≤ 49999 of
  a row lookup in a table of 50000 rows is passed.
-/
import proofs.«408380_j34084860461598_1_alg».proof.Pre_finite_inputs
import proofs.«408380_j34084860461598_1_alg».proof.Proof.Gen.Pre_finite_inputs
import Idealize.ShloMosaic.Lib.StableHlo.Predicate
import Idealize.ShloMosaic.Lib.ReduceAll
import Idealize.ShloMosaic.Lib.ValueIdx

noncomputable section

namespace Cert.PreRange

open Idealize.ShloMosaic
open Cert.Pre_finite_inputs

/-- Every entry of the index array, read as an unsigned word, is below 50000 (so it is a non-negative signed word too). -/
def InRange (x2 : (⟨2, ![2, 800000]⟩ : Shape).Idx → BitVec 32) : Prop := ∀ i, (x2 i).toNat < 50000

/-! ## Words -/

/-- A word below 50000 reads the same signed and unsigned. -/
theorem toInt_of_lt (w : BitVec 32) (hw : w.toNat < 50000) : w.toInt = w.toNat :=
  StableHlo.Predicate.toInt_eq_toNat_of_lt (by omega)

theorem toInt_zero : (0#32 : BitVec 32).toInt = 0 := by decide
theorem toInt_50000 : (50000#32 : BitVec 32).toInt = 50000 := by decide
theorem toInt_49999 : (49999#32 : BitVec 32).toInt = 49999 := by decide

/-- 0 ≤ w < 50000 signed gives w < 50000 unsigned: a non-negative signed word is its unsigned value. -/
theorem toNat_lt_of_signed (w : BitVec 32) (h0 : IntOp.cmpi .sge w 0#32 = 1#1) (h1 : IntOp.cmpi .slt w 50000#32 = 1#1) :
    w.toNat < 50000 := by
  have g := IntOp.cmpi_sge.1 h0
  have l := IntOp.cmpi_slt.1 h1
  rw [toInt_zero] at g
  rw [toInt_50000] at l
  have h32 := w.isLt
  rw [BitVec.toInt_eq_toNat_cond] at g l
  split at g <;> omega

/-- The wrap of a from-the-end index (add 50000 when negative) leaves an in-range index alone: it is not negative. -/
theorem wrap_eq (w : BitVec 32) (hw : w.toNat < 50000) :
    Scalar.select (IntOp.cmpi .slt w 0#32) (IntOp.addi w 50000#32) w = w := by
  unfold Scalar.select
  refine if_neg (fun hc => ?_)
  have l := IntOp.cmpi_slt.1 hc
  rw [toInt_zero, toInt_of_lt w hw] at l
  omega

/-- The in-bounds test 0 ≤ w ≤ 49999 (signed) of a lookup in 50000 rows is passed by an in-range index. -/
theorem inb_mask (w : BitVec 32) (hw : w.toNat < 50000) :
    IntOp.andi (IntOp.cmpi .sge w 0#32) (IntOp.cmpi .sle w 49999#32) = 1#1 := by
  refine IntOp.andi_eq_one.2 ⟨IntOp.cmpi_sge.2 ?_, IntOp.cmpi_sle.2 ?_⟩
  · rw [toInt_zero, toInt_of_lt w hw]; omega
  · rw [toInt_49999, toInt_of_lt w hw]; omega

/-! ## The precondition read back -/

/-- The result shape of an "all" has one position. -/
instance subsingleton_scalar_idx : Subsingleton S_.Idx := ⟨fun a b => funext fun d => d.elim0⟩

/-- The precondition is all ones only if every entry of the index array is in 0 … 49999. -/
theorem inRange_of_pre {F : FTy → Type} [FloatOps F] [Facts]
    (a0 : FVec F S50000x128 .f32) (a1 : FVec F S50000x3 .f32) (a2 : IVec S2x800000 32) (a3 : FVec F S128x257 .f32)
    (a4 : FVec F S128 .f32) (a5 : FVec F S128x128 .f32) (a6 : FVec F S128 .f32) (a7 : FVec F S128x256 .f32)
    (a8 : FVec F S128 .f32) (a9 : FVec F S128x128 .f32) (a10 : FVec F S128 .f32) (a11 : FVec F S128x128 .f32)
    (a12 : FVec F S128 .f32) (a13 : FVec F S1x128 .f32) (a14 : FVec F S1 .f32)
    (h : fn (F := F) a0 a1 a2 a3 a4 a5 a6 a7 a8 a9 a10 a11 a12 a13 a14 = fun _ => 1#1) : InRange a2 := by
  have e := congrFun h ValueIdx.ix0
  -- the conjunction's last two conjuncts are the two tests of the index array
  change IntOp.andi (IntOp.andi _ (Host.reduce IntOp.andi (cmpi .sge a2 _) _ _ _ _))
    (Host.reduce IntOp.andi (cmpi .slt a2 _) _ _ _ _) = 1#1 at e
  obtain ⟨e', hlt⟩ := IntOp.andi_eq_one.1 e
  obtain ⟨-, hge⟩ := IntOp.andi_eq_one.1 e'
  intro i
  have g := Host.reduce_andi_all _ _ _ _ _ hge i
  have l := Host.reduce_andi_all _ _ _ _ _ hlt i
  exact toNat_lt_of_signed (a2 i) g l

end Cert.PreRange

end
-- ==== Proof.TakeGather.lean ====
/-
  The two programs' host sides, compared.

  Both programs read, per edge, rows of the node arrays at the edge's end nodes. One of them guards each lookup: it
  tests whether the start position lies in 0 … 49999 and returns a not-a-number filler where it does not; the other
  looks the row up unguarded. When every entry of the edge list lies in 0 … 49999 the start position of every edge is
  the entry itself (nothing is negative, so nothing is moved up by the node count), the test is passed at every edge,
  and the guarded lookup returns the looked-up row: the two lookups are the same array. Everything the host computes
  from the looked-up rows, the radial vector, its floored length, the sums into the nodes, is then the same composition
  of the same operations on both sides.
-/
import proofs.«408380_j34084860461598_1_alg».proof.Proof.KHostDefs
import proofs.«408380_j34084860461598_1_alg».proof.Proof.Gen.ReferenceIdeal.Read
import proofs.«408380_j34084860461598_1_alg».proof.Proof.PreRange

noncomputable section

namespace Cert.Cross

open Idealize.ShloMosaic
open Cert.KernelIdeal Cert.KernelIdeal.Gen Cert.KernelIdeal.Hand Cert.ReferenceIdeal.Read Cert.PreRange

/-! ## A conjunction of ones is one -/

/-- Folding "and" from one over a list of ones gives one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-- An "all" over any axes of an array of ones, started from one, is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-- A choice on a one takes its first alternative. -/
theorem select_one {α : Type} (a b : α) : Scalar.select (1#1 : BitVec 1) a b = a := if_pos rfl

/-- A lane-wise choice under a mask of ones is its first alternative. -/
theorem select_ones {s : Shape} {α : Type} (c : IVec s 1) (a b : s.Idx → α) (hc : ∀ i, c i = 1#1) : select c a b = a :=
  funext fun i => by
    show Scalar.select (c i) (a i) (b i) = a i
    rw [hc i, select_one]

/-- An array of ones laid out along more axes is an array of ones. -/
theorem bcast_ones {s t : Shape} (dims : Fin s.rank → Fin t.rank) (hb : s.BroadcastsInDim t dims) (m : IVec s 1)
    (hm : ∀ k, m k = 1#1) (i : t.Idx) : broadcastInDim t dims hb m i = 1#1 := by
  unfold broadcastInDim
  exact hm _

/-! ## Start positions of in-range node numbers -/

/-- The start position of an edge is below the node count. -/
theorem wrapK_lt (idx : IVec S800000 32) (h : ∀ k, (idx k).toNat < 50000) (i : S800000x1.Idx) :
    (wrapK idx i).toNat < 50000 := by
  have e : wrapK idx i = idx _ := wrap_eq (idx _) (h _)
  rw [e]; exact h _

/-- Every edge's start position passes the bounds test. -/
theorem inRangeK_one (idx : IVec S800000 32) (h : ∀ k, (idx k).toNat < 50000) (k : S800000.Idx) :
    inRangeK (wrapK idx) k = 1#1 := by
  unfold inRangeK
  refine reduce_andi_one _ _ _ _ (fun i => ?_) (fun _ => rfl) k
  exact inb_mask (wrapK idx i) (wrapK_lt idx h i)

/-- The guarded lookup of 128 features is the lookup. -/
theorem takeK128_eq (x : FVec Ideal S50000x128 .f32) (idx : IVec S800000 32) (h : ∀ k, (idx k).toNat < 50000) :
    takeK128 x idx = Host.gather gather_S50000x128_S800000x1_S800000x128_1_0_n_n_0_1_1128 x (wrapK idx) := by
  unfold takeK128
  exact select_ones _ _ _ (bcast_ones _ _ _ (inRangeK_one idx h))

/-- The guarded lookup of 3 coordinates is the lookup. -/
theorem takeK3_eq (x : FVec Ideal S50000x3 .f32) (idx : IVec S800000 32) (h : ∀ k, (idx k).toNat < 50000) :
    takeK3 x idx = Host.gather gather_S50000x3_S800000x1_S800000x3_1_0_n_n_0_1_13 x (wrapK idx) := by
  unfold takeK3
  exact select_ones _ _ _ (bcast_ones _ _ _ (inRangeK_one idx h))

/-! ## The two rows of the edge list -/

variable (x0 : FVec Ideal S50000x128 .f32) (x1 : FVec Ideal S50000x3 .f32) (x2 : IVec S2x800000 32)

theorem rowK_eq : rowK x2 = val_main_v1 (F := Ideal) x2 := rfl
theorem colK_eq : colK x2 = val_main_v3 (F := Ideal) x2 := rfl

theorem row_lt (hr : InRange x2) (k : S800000.Idx) : (rowK x2 k).toNat < 50000 := by
  rw [rowK_eq, val_main_v1_apply, val_main_v0_apply]; exact hr _

theorem col_lt (hr : InRange x2) (k : S800000.Idx) : (colK x2 k).toNat < 50000 := by
  rw [colK_eq, val_main_v3_apply, val_main_v2_apply]; exact hr _

/-! ## The lookups, the radial vector and its length, the sums into the nodes -/

theorem take_row128 (hr : InRange x2) : takeK128 x0 (rowK x2) = val_main_v28 (F := Ideal) x0 x2 := by
  rw [takeK128_eq x0 _ (row_lt x2 hr)]; rfl

theorem take_col128 (hr : InRange x2) : takeK128 x0 (colK x2) = val_main_v35 (F := Ideal) x0 x2 := by
  rw [takeK128_eq x0 _ (col_lt x2 hr)]; rfl

theorem take_row3 (hr : InRange x2) : takeK3 x1 (rowK x2) = val_main_v10 (F := Ideal) x1 x2 := by
  rw [takeK3_eq x1 _ (row_lt x2 hr)]; rfl

theorem take_col3 (hr : InRange x2) : takeK3 x1 (colK x2) = val_main_v17 (F := Ideal) x1 x2 := by
  rw [takeK3_eq x1 _ (col_lt x2 hr)]; rfl

theorem radial_eq (hr : InRange x2) : radialK x1 x2 = val_main_v18 (F := Ideal) x1 x2 := by
  unfold radialK
  rw [take_row3 x1 x2 hr, take_col3 x1 x2 hr]; rfl

theorem rad_eq (hr : InRange x2) : radK x1 x2 = val_main_v21 (F := Ideal) x1 x2 := by
  unfold radK
  rw [radial_eq x1 x2 hr]; rfl

theorem agg_eq (mm : FVec Ideal S800000x128 .f32) :
    aggK (rowK x2) mm = Host.scatterAdd Cert.ReferenceIdeal.scatter_S50000x128_S800000x1_S800000x128_1_0_0_1
      (val_main_v48 (F := Ideal)) (val_main_v49 (F := Ideal) x2) mm := rfl

theorem pos_eq (hr : InRange x2) (cd : FVec Ideal S800000x1 .f32) :
    posK x1 x2 cd = Host.scatterAdd Cert.ReferenceIdeal.scatter_S50000x3_S800000x1_S800000x3_1_0_0_1 x1
      (val_main_v87 (F := Ideal) x2)
      (mulf (broadcastInDim Cert.ReferenceIdeal.S800000x3 ![0, 1] Cert.ReferenceIdeal.Gen.bcast_S800000x1_S800000x3_0_1 cd)
        (val_main_v79 (F := Ideal) x1 x2)) := by
  unfold posK
  rw [rad_eq x1 x2 hr, radial_eq x1 x2 hr]; rfl

end Cert.Cross

end
-- ==== Proof.Assemble.lean ====
/- The two programs meet.

   The kernel program's node features end as the node layer (`Spec.hnewArr`) of the input features and of
   the messages summed into their source nodes; its positions end as the input positions plus, summed
   into each edge's source node, the edge's coordinate weight times its normalised offset.  The messages
   and coordinate weights are the edge layers (`Spec.mijArr`, `Spec.cdiffArr`) of the gathered rows.
   Where every edge index is a valid node index, the kernel's guarded row reads are plain reads, so every
   array the kernel's layers receive is the array the reference's stage of the same name holds, and the
   reference's stages are the same spec functions: the results agree entry by entry. -/
import proofs.«408380_j34084860461598_1_alg».proof.Proof.KRun
import proofs.«408380_j34084860461598_1_alg».proof.Proof.KHost
import proofs.«408380_j34084860461598_1_alg».proof.Proof.KHostRes0
import proofs.«408380_j34084860461598_1_alg».proof.Proof.KHostW0
import proofs.«408380_j34084860461598_1_alg».proof.Proof.KHostW1
import proofs.«408380_j34084860461598_1_alg».proof.Proof.R0Value
import proofs.«408380_j34084860461598_1_alg».proof.Proof.R1Value
import proofs.«408380_j34084860461598_1_alg».proof.Proof.RefEdge
import proofs.«408380_j34084860461598_1_alg».proof.Proof.RefNode
import proofs.«408380_j34084860461598_1_alg».proof.Proof.PreRange
import proofs.«408380_j34084860461598_1_alg».proof.Proof.TakeGather

set_option maxRecDepth 16384

noncomputable section

namespace Cert.Cross

open Idealize.ShloMosaic Idealize.ShloMosaic.TcCoe Idealize.SL.Sem
open Cert.KernelIdeal Cert.KernelIdeal.Gen Cert.KernelIdeal.Hand Cert.Spec Cert.PreRange
open Cert.ReferenceIdeal.Read Cert.ReferenceIdeal.Hand

/-- The edge layer takes equal arrays to equal messages. -/
theorem mijArr_congr {a0 b0 a1 b1 : A2 800000 128} {a2 b2 : A2 800000 1} {a3 b3 a4 b4 : A2 128 128} {a5 b5 a6 b6 : A2 1 128}
    {a7 b7 : A2 128 128} {a8 b8 : A2 1 128} (h0 : a0 = b0) (h1 : a1 = b1) (h2 : a2 = b2) (h3 : a3 = b3) (h4 : a4 = b4)
    (h5 : a5 = b5) (h6 : a6 = b6) (h7 : a7 = b7) (h8 : a8 = b8) :
    mijArr a0 a1 a2 a3 a4 a5 a6 a7 a8 = mijArr b0 b1 b2 b3 b4 b5 b6 b7 b8 := by
  subst h0 h1 h2 h3 h4 h5 h6 h7 h8; rfl

/-- The coordinate layer takes equal arrays to equal weights. -/
theorem cdiffArr_congr {a0 b0 : A2 800000 128} {a1 b1 : A2 128 128} {a2 b2 : A2 1 128} {a3 b3 : A2 128 1} {a4 b4 : A2 1 1}
    (h0 : a0 = b0) (h1 : a1 = b1) (h2 : a2 = b2) (h3 : a3 = b3) (h4 : a4 = b4) :
    cdiffArr a0 a1 a2 a3 a4 = cdiffArr b0 b1 b2 b3 b4 := by
  subst h0 h1 h2 h3 h4; rfl

/-- The node layer takes equal arrays to equal features. -/
theorem hnewArr_congr {a0 b0 a1 b1 : A2 50000 128} {a2 b2 a3 b3 : A2 128 128} {a4 b4 : A2 1 128} {a5 b5 : A2 128 128} {a6 b6 : A2 1 128}
    (h0 : a0 = b0) (h1 : a1 = b1) (h2 : a2 = b2) (h3 : a3 = b3) (h4 : a4 = b4) (h5 : a5 = b5) (h6 : a6 = b6) :
    hnewArr a0 a1 a2 a3 a4 a5 a6 = hnewArr b0 b1 b2 b3 b4 b5 b6 := by
  subst h0 h1 h2 h3 h4 h5 h6; rfl

variable (m : (ℓ : Loc nD τ sig) → Buf (Elt Ideal) ℓ) (ρ : Dev nD → PrngReg)

/-- The messages of the arrays the edge region receives are the reference's message stage. -/
theorem mij_terms_eq (c : Dev nD) (hr : InRange (m ((c : Thread nD τ).loc main_arg2))) :
    mijArr (V8 m ρ c (Pipeline.arrRef spec0 0)) (V8 m ρ c (Pipeline.arrRef spec0 1)) (V8 m ρ c (Pipeline.arrRef spec0 2))
        (V8 m ρ c (Pipeline.arrRef spec0 3)) (V8 m ρ c (Pipeline.arrRef spec0 4)) (V8 m ρ c (Pipeline.arrRef spec0 5))
        (V8 m ρ c (Pipeline.arrRef spec0 6)) (V8 m ρ c (Pipeline.arrRef spec0 7)) (V8 m ρ c (Pipeline.arrRef spec0 8))
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (mijArr_congr ((A0 m ρ c).trans (take_row128 _ _ hr)) ((A1 m ρ c).trans (take_col128 _ _ hr)) ((A2' m ρ c).trans (rad_eq _ _ hr))
      (A3 m ρ c) (A4 m ρ c) (A5 m ρ c) (A6 m ρ c) (A7 m ρ c) (A8 m ρ c)).trans
    (ref_mij _ _ _ _ _ _ _).symm

/-- The message array the edge region leaves is the reference's message stage. -/
theorem msgs_eq (c : Dev nD) (hr : InRange (m ((c : Thread nD τ).loc main_arg2))) :
    ((dat0 (V8 m ρ) c).arrAt 13 cfg0.N : A2 800000 128) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (arr13 (V8 m ρ) c).trans (mij_terms_eq m ρ c hr)

/-- The coordinate weights the edge region leaves are the reference's stage. -/
theorem cd_eq (c : Dev nD) (hr : InRange (m ((c : Thread nD τ).loc main_arg2))) :
    ((dat0 (V8 m ρ) c).arrAt 14 cfg0.N : A2 800000 1) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) :=
  (arr14 (V8 m ρ) c).trans
    ((cdiffArr_congr (mij_terms_eq m ρ c hr) (A9 m ρ c) (A10 m ρ c) (A11 m ρ c) (A12 m ρ c)).trans
      (ref_cd _ _ _ _ _ _ _ _ _ _ _).symm)

/-- The aggregated messages the node region receives are the reference's aggregate. -/
theorem agg_terms_eq (c : Dev nD) (hr : InRange (m ((c : Thread nD τ).loc main_arg2))) :
    (V10 m ρ c (Pipeline.arrRef spec1 1) : A2 50000 128) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (B1 m ρ c).trans ((congrArg (aggK (rowK (m ((c : Thread nD τ).loc main_arg2)))) (msgs_eq m ρ c hr)).trans (agg_eq _ _))

/-- The kernel program's first result is the reference's. -/
theorem result0_eq (c : Dev nD) (hr : InRange (m ((c : Thread nD τ).loc main_arg2))) :
    W12 m ρ c (Proc.devRef .tc main_v37) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (res0 m ρ c).trans ((arr7 (V10 m ρ) c).trans
    ((hnewArr_congr (B0 m ρ c) (agg_terms_eq m ρ c hr) (B2 m ρ c) (B3 m ρ c) (B4 m ρ c) (B5 m ρ c) (B6 m ρ c)).trans
      (ref_hnew _ _ _ _ _ _ _ _ _ _ _).symm))

/-- The kernel program's second result is the reference's. -/
theorem result1_eq (c : Dev nD) (hr : InRange (m ((c : Thread nD τ).loc main_arg2))) :
    W12 m ρ c (Proc.devRef .tc main_v48) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) :=
  (res1 m ρ c).trans ((congrArg (posK (m ((c : Thread nD τ).loc main_arg1)) (m ((c : Thread nD τ).loc main_arg2))) (cd_eq m ρ c hr)).trans (pos_eq _ _ hr _))

end Cert.Cross

end
-- ==== Proof.lean ====
/- The certificate of the message-passing layer: three frames, the (empty) idealization ledger, and the equality
   of the two idealized programs' results over the extended reals.

   The frames of the two kernel programs are the generated ones (two pipelined regions among host operations,
   every region of the class whose frame is generated whole); the reference's frame is its run with the results
   dropped.  For the equality, the statement assumes every float input finite and every entry of the edge index
   array a valid node index; only the second is used.  Under it the kernel program's guarded row reads are the
   reference's plain reads, each of the kernel's three dense layers computes, row by row, the function the
   reference computes with one wide matrix product where the kernel adds the products with the matrix's column
   blocks, and the two scatter-additions are the same operation on both sides. -/
import proofs.«408380_j34084860461598_1_alg».proof.Defs
import proofs.«408380_j34084860461598_1_alg».proof.Proof.Gen.Kernel
import proofs.«408380_j34084860461598_1_alg».proof.Proof.Gen.Kernel.Frame
import proofs.«408380_j34084860461598_1_alg».proof.Proof.Gen.KernelIdeal
import proofs.«408380_j34084860461598_1_alg».proof.Proof.Gen.KernelIdeal.Frame
import proofs.«408380_j34084860461598_1_alg».proof.Proof.Gen.ReferenceIdeal
import proofs.«408380_j34084860461598_1_alg».proof.Proof.Gen.ReferenceIdeal.Run
import proofs.«408380_j34084860461598_1_alg».proof.Proof.Gen.ReferenceIdeal.Read
import proofs.«408380_j34084860461598_1_alg».proof.Proof.Gen.Pre_finite_inputs
import proofs.«408380_j34084860461598_1_alg».proof.Proof.Assemble
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the same two arrays: the kernel program's run names its results at the last
    boundary's contents, and those are the reference's stages at the shared arguments. -/
theorem algebraic : Cert.algebraic_KernelIdeal_ReferenceIdeal := by
  intro m ρ m' ρ' hpre hagree
  have hr : ∀ c : Dev Cert.KernelIdeal.nD, Cert.PreRange.InRange (m ((c.tc : Thread Cert.KernelIdeal.nD Cert.KernelIdeal.τ).loc Cert.KernelIdeal.main_arg2)) := fun c =>
    Cert.PreRange.inRange_of_pre _ _ _ _ _ _ _ _ _ _ _ _ _ _ _ (hpre c)
  refine ⟨fun c => Cert.KernelIdeal.Gen.W12 m ρ c (Proc.devRef .tc Cert.KernelIdeal.main_v37),
    fun c => Cert.KernelIdeal.Gen.W12 m ρ c (Proc.devRef .tc Cert.KernelIdeal.main_v48), Cert.KernelIdeal.Hand.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v63_eq, e0, e1, e2, e3, e4, e5, e6, e7, e8, e9, e10]
    exact (Cert.Cross.result0_eq m ρ c (hr c)).symm
  · obtain ⟨e0, e1, e2, e3, e4, e5, e6, e7, e8, e9, e10, e11, e12, e13, e14⟩ := hagree c
    rw [Cert.ReferenceIdeal.Read.val_main_v88_eq, e0, e1, e2, e3, e4, e5, e6, e11, e12, e13, e14]
    exact (Cert.Cross.result1_eq m ρ c (hr c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
